-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S8x512x512 : Shape := ⟨3, ![8, 512, 512]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel

variable [Facts]

def fn {F : FTy → Type} [FloatOps F] (main_arg0 : FVec F S8x3x512x512 .f32) (main_arg1 : FVec F S8x3x512x512 .f32) (main_arg2 : IVec S8x512x512 32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x3x512x512 : Shape := ⟨4, ![8, 3, 512, 512]⟩
abbrev S8x512x512 : Shape := ⟨3, ![8, 512, 512]⟩
abbrev S8x3x64x512 : Shape := ⟨4, ![8, 3, 64, 512]⟩
abbrev S8x64x512 : Shape := ⟨3, ![8, 64, 512]⟩
abbrev S8 : Shape := ⟨1, ![8]⟩
abbrev S8x1x1 : Shape := ⟨3, ![8, 1, 1]⟩
abbrev S_ : Shape := ⟨0, ![]⟩
abbrev S2097152 : Shape := ⟨1, ![2097152]⟩
abbrev S512 : Shape := ⟨1, ![512]⟩
abbrev S2097152x1 : Shape := ⟨2, ![2097152, 1]⟩
abbrev S1x1 : Shape := ⟨2, ![1, 1]⟩
abbrev S8x1x64x512 : Shape := ⟨4, ![8, 1, 64, 512]⟩
abbrev S8x3x64 : Shape := ⟨3, ![8, 3, 64]⟩
abbrev S8x3 : Shape := ⟨2, ![8, 3]⟩
abbrev S1x8 : Shape := ⟨2, ![1, 8]⟩
abbrev S1 : Shape := ⟨1, ![1]⟩

abbrev nBuf : Space → Nat
  | .hbm => 65
  | .vmem => 13
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S8x512x512, .i32⟩
  | .hbm, ⟨3, _⟩ => ⟨S8x512x512, .f32⟩
  | .hbm, ⟨4, _⟩ => ⟨S8, .i32⟩
  | .hbm, ⟨5, _⟩ => ⟨S8x1x1, .i32⟩
  | .hbm, ⟨6, _⟩ => ⟨S_, .i32⟩
  | .hbm, ⟨7, _⟩ => ⟨S8x1x1, .i32⟩
  | .hbm, ⟨8, _⟩ => ⟨S8x1x1, .i32⟩
  | .hbm, ⟨9, _⟩ => ⟨S8x512x512, .i32⟩
  | .hbm, ⟨10, _⟩ => ⟨S8x512x512, .i32⟩
  | .hbm, ⟨11, _⟩ => ⟨S2097152, .i32⟩
  | .hbm, ⟨12, _⟩ => ⟨S2097152, .f32⟩
  | .hbm, ⟨13, _⟩ => ⟨S_, .f32⟩
  | .hbm, ⟨14, _⟩ => ⟨S512, .f32⟩
  | .hbm, ⟨15, _⟩ => ⟨S2097152x1, .i32⟩
  | .hbm, ⟨16, _⟩ => ⟨S512, .f32⟩
  | .hbm, ⟨17, _⟩ => ⟨S_, .f32⟩
  | .hbm, ⟨18, _⟩ => ⟨S8x512x512, .f32⟩
  | .hbm, ⟨19, _⟩ => ⟨S2097152, .f32⟩
  | .hbm, ⟨20, _⟩ => ⟨S_, .f32⟩
  | .hbm, ⟨21, _⟩ => ⟨S512, .f32⟩
  | .hbm, ⟨22, _⟩ => ⟨S2097152x1, .i32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S_, .i32⟩
  | .hbm, ⟨32, _⟩ => ⟨S2097152, .i32⟩
  | .hbm, ⟨33, _⟩ => ⟨S2097152, .i1⟩
  | .hbm, ⟨34, _⟩ => ⟨S_, .i32⟩
  | .hbm, ⟨35, _⟩ => ⟨S2097152, .i32⟩
  | .hbm, ⟨36, _⟩ => ⟨S2097152, .i32⟩
  | .hbm, ⟨37, _⟩ => ⟨S2097152, .i32⟩
  | .hbm, ⟨38, _⟩ => ⟨S2097152x1, .i32⟩
  | .hbm, ⟨39, _⟩ => ⟨S2097152, .f32⟩
  | .hbm, ⟨40, _⟩ => ⟨S8x512x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x512x512, .f32⟩
  | .hbm, ⟨51, _⟩ => ⟨S8x512x512, .f32⟩
  | .hbm, ⟨52, _⟩ => ⟨S8x512x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x512x512, .f32⟩
  | .hbm, ⟨57, _⟩ => ⟨S8x512x512, .f32⟩
  | .hbm, ⟨58, _⟩ => ⟨S_, .f32⟩
  | .hbm, ⟨59, _⟩ => ⟨S8x512x512, .f32⟩
  | .hbm, ⟨60, _⟩ => ⟨S8x512x512, .f32⟩
  | .hbm, ⟨61, _⟩ => ⟨S1x1, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64x512, .f32⟩
  | .local _ .vmem, ⟨3, _⟩ => ⟨S8x3x64x512, .f32⟩
  | .local _ .vmem, ⟨4, _⟩ => ⟨S8x64x512, .f32⟩
  | .local _ .vmem, ⟨5, _⟩ => ⟨S8x64x512, .f32⟩
  | .local _ .vmem, ⟨6, _⟩ => ⟨S8x3x64x512, .f32⟩
  | .local _ .vmem, ⟨7, _⟩ => ⟨S8x3x64x512, .f32⟩
  | .local _ .vmem, ⟨8, _⟩ => ⟨S8x3x64x512, .f32⟩
  | .local _ .vmem, ⟨9, _⟩ => ⟨S8x3x64x512, .f32⟩
  | .local _ .vmem, ⟨10, _⟩ => ⟨S8x64x512, .f32⟩
  | .local _ .vmem, ⟨11, _⟩ => ⟨S8x64x512, .f32⟩
  | .local _ .vmem, ⟨12, _⟩ => ⟨S1x1, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x3x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x3x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S8x3x64x512_S8x3x64x512_0_0_0_0 : ∀ a, (![0, 0, 0, 0] : Fin 4 → Nat) a + S8x3x64x512.size a ≤ S8x3x64x512.size a
  h_S8x3x64x512 : 0 < S8x3x64x512.numel
  reduces_S8x3x64x512_S8x64x512 : S8x3x64x512.Reduces [1] S8x64x512
  inb_S8x64x512_S8x64x512_0_0_0 : ∀ a, (![0, 0, 0] : Fin 3 → Nat) a + S8x64x512.size a ≤ S8x64x512.size a
  h_S8x64x512 : 0 < S8x64x512.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  shapeCasts_S8x512x512_S2097152 : S8x512x512.ShapeCasts S2097152
  bcast_S_S512 : S_.BroadcastsInDim S512 (![] : Fin 0 → Fin S512.rank)
  bcast_S2097152_S2097152x1_0 : S2097152.BroadcastsInDim S2097152x1 (![0] : Fin 1 → Fin S2097152x1.rank)
  bcast_S_S8x512x512 : S_.BroadcastsInDim S8x512x512 (![] : Fin 0 → Fin S8x512x512.rank)
  bcast_S_S2097152 : S_.BroadcastsInDim S2097152 (![] : Fin 0 → Fin S2097152.rank)
  shapeCasts_S2097152_S8x512x512 : S2097152.ShapeCasts S8x512x512
  reducesTo_S8x512x512_S_d0_1_2 : S8x512x512.ReducesTo [0, 1, 2] S_
  h_S_ : 0 < S_.numel
  inb_S1x1_S1x1_0_0 : ∀ a, (![0, 0] : Fin 2 → Nat) a + S1x1.size a ≤ S1x1.size a
  h_S1x1 : 0 < S1x1.numel
  shapeCasts_S8x64x512_S8x64x512 : S8x64x512.ShapeCasts S8x64x512
  shapeCasts_S8x64x512_S8x1x64x512 : S8x64x512.ShapeCasts S8x1x64x512
  broadcasts_S8x1x64x512_S8x3x64x512 : S8x1x64x512.Broadcasts S8x3x64x512
  reduces_S8x3x64x512_S8x3x64 : S8x3x64x512.Reduces [3] S8x3x64
  reduces_S8x3x64_S8x3 : S8x3x64.Reduces [2] S8x3
  reduces_S8x3_S8 : S8x3.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  scatter_S512_S2097152x1_S2097152_n_0_0_1_wf : ScatterDims.WF S512 S2097152x1 S2097152 [] [0] [0] 1
  gather_S512_S2097152x1_S2097152_n_0_n_n_0_1_1_wf : GatherDims.WF S512 S2097152x1 S2097152 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S8x3x512x512.size a
  hwx0_0 : ∀ i : grid0.Coords, EltTy.bits .f32 = 32 ∨ (Rect.block (s := S8x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S8x3x512x512.size a
  hwx0_1 : ∀ i : grid0.Coords, EltTy.bits .f32 = 32 ∨ (Rect.block (s := S8x3x512x512) S8x3x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x512.size a ≤ S8x512x512.size a
  hwx0_2 : ∀ i : grid0.Coords, EltTy.bits .f32 = 32 ∨ (Rect.block (s := S8x512x512) S8x64x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x3x64x512.size a ≤ S8x3x512x512.size a
  hwx1_0 : ∀ i : grid1.Coords, EltTy.bits .f32 = 32 ∨ (Rect.block (s := S8x3x512x512) S8x3x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x3x64x512.size a ≤ S8x3x512x512.size a
  hwx1_1 : ∀ i : grid1.Coords, EltTy.bits .f32 = 32 ∨ (Rect.block (s := S8x3x512x512) S8x3x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64x512.size a ≤ S8x512x512.size a
  hwx1_2 : ∀ i : grid1.Coords, EltTy.bits .f32 = 32 ∨ (Rect.block (s := S8x512x512) S8x64x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def scatter_S512_S2097152x1_S2097152_n_0_0_1 : ScatterDims S512 S2097152x1 S2097152 where
  updateWindowDims := []
  insertedWindowDims := [0]
  scatterDimsToOperandDims := [0]
  indexVectorDim := 1
  wf := scatter_S512_S2097152x1_S2097152_n_0_0_1_wf
def gather_S512_S2097152x1_S2097152_n_0_n_n_0_1_1 : GatherDims S512 S2097152x1 S2097152 where
  offsetDims := []
  collapsedSliceDims := [0]
  operandBatchingDims := []
  startIndicesBatchingDims := []
  startIndexMap := [0]
  indexVectorDim := 1
  sliceSizes := ![1]
  wf := gather_S512_S2097152x1_S2097152_n_0_n_n_0_1_1_wf

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x3x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x3x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8x64x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x3x512x512 : Shape := ⟨4, ![8, 3, 512, 512]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S2097152 : Shape := ⟨1, ![2097152]⟩
abbrev S512 : Shape := ⟨1, ![512]⟩
abbrev S2097152x1 : Shape := ⟨2, ![2097152, 1]⟩
abbrev S8x1x512x512 : Shape := ⟨4, ![8, 1, 512, 512]⟩

abbrev nBuf : Space → Nat
  | .hbm => 77
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S8x512x512, .i32⟩
  | .hbm, ⟨3, _⟩ => ⟨S8x3x512x512, .f32⟩
  | .hbm, ⟨4, _⟩ => ⟨S8x3x512x512, .f32⟩
  | .hbm, ⟨5, _⟩ => ⟨S_, .f32⟩
  | .hbm, ⟨6, _⟩ => ⟨S8x512x512, .f32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i32⟩
  | .hbm, ⟨12, _⟩ => ⟨S8x512x512, .i32⟩
  | .hbm, ⟨13, _⟩ => ⟨S8x512x512, .i32⟩
  | .hbm, ⟨14, _⟩ => ⟨S2097152, .i32⟩
  | .hbm, ⟨15, _⟩ => ⟨S2097152, .f32⟩
  | .hbm, ⟨16, _⟩ => ⟨S_, .f32⟩
  | .hbm, ⟨17, _⟩ => ⟨S512, .f32⟩
  | .hbm, ⟨18, _⟩ => ⟨S2097152x1, .i32⟩
  | .hbm, ⟨19, _⟩ => ⟨S512, .f32⟩
  | .hbm, ⟨20, _⟩ => ⟨S_, .f32⟩
  | .hbm, ⟨21, _⟩ => ⟨S8x512x512, .f32⟩
  | .hbm, ⟨22, _⟩ => ⟨S2097152, .f32⟩
  | .hbm, ⟨23, _⟩ => ⟨S_, .f32⟩
  | .hbm, ⟨24, _⟩ => ⟨S512, .f32⟩
  | .hbm, ⟨25, _⟩ => ⟨S2097152x1, .i32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .i32⟩
  | .hbm, ⟨35, _⟩ => ⟨S2097152, .i32⟩
  | .hbm, ⟨36, _⟩ => ⟨S2097152, .i1⟩
  | .hbm, ⟨37, _⟩ => ⟨S_, .i32⟩
  | .hbm, ⟨38, _⟩ => ⟨S2097152, .i32⟩
  | .hbm, ⟨39, _⟩ => ⟨S2097152, .i32⟩
  | .hbm, ⟨40, _⟩ => ⟨S2097152, .i32⟩
  | .hbm, ⟨41, _⟩ => ⟨S2097152x1, .i32⟩
  | .hbm, ⟨42, _⟩ => ⟨S2097152, .f32⟩
  | .hbm, ⟨43, _⟩ => ⟨S8x512x512, .f32⟩
  | .hbm, ⟨44, _⟩ => ⟨S8x1x512x512, .f32⟩
  | .hbm, ⟨45, _⟩ => ⟨S8x3x512x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x3x512x512, .f32⟩
  | .hbm, ⟨56, _⟩ => ⟨S8x3x512x512, .f32⟩
  | .hbm, ⟨57, _⟩ => ⟨S8x3x512x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8x3x512x512, .f32⟩
  | .hbm, ⟨62, _⟩ => ⟨S8x3x512x512, .f32⟩
  | .hbm, ⟨63, _⟩ => ⟨S_, .f32⟩
  | .hbm, ⟨64, _⟩ => ⟨S8x3x512x512, .f32⟩
  | .hbm, ⟨65, _⟩ => ⟨S8x3x512x512, .f32⟩
  | .hbm, ⟨66, _⟩ => ⟨S_, .f32⟩
  | .hbm, ⟨67, _⟩ => ⟨S8x3x512x512, .f32⟩
  | .hbm, ⟨68, _⟩ => ⟨S8x3x512x512, .f32⟩
  | .hbm, ⟨69, _⟩ => ⟨S_, .f32⟩
  | .hbm, ⟨70, _⟩ => ⟨S8x3x512x512, .f32⟩
  | .hbm, ⟨71, _⟩ => ⟨S8x3x512x512, .f32⟩
  | .hbm, ⟨72, _⟩ => ⟨S8x3x512x512, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_cst_12 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_cst_16 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  reducesTo_S8x3x512x512_S8x512x512_d1 : S8x3x512x512.ReducesTo [1] S8x512x512
  h_S_ : 0 < S_.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  shapeCasts_S8x512x512_S2097152 : S8x512x512.ShapeCasts S2097152
  bcast_S_S512 : S_.BroadcastsInDim S512 (![] : Fin 0 → Fin S512.rank)
  bcast_S2097152_S2097152x1_0 : S2097152.BroadcastsInDim S2097152x1 (![0] : Fin 1 → Fin S2097152x1.rank)
  bcast_S_S8x512x512 : S_.BroadcastsInDim S8x512x512 (![] : Fin 0 → Fin S8x512x512.rank)
  bcast_S_S2097152 : S_.BroadcastsInDim S2097152 (![] : Fin 0 → Fin S2097152.rank)
  shapeCasts_S2097152_S8x512x512 : S2097152.ShapeCasts S8x512x512
  bcast_S8x512x512_S8x1x512x512_0_2_3 : S8x512x512.BroadcastsInDim S8x1x512x512 (![0, 2, 3] : Fin 3 → Fin S8x1x512x512.rank)
  bcast_S8x1x512x512_S8x3x512x512_0_1_2_3 : S8x1x512x512.BroadcastsInDim S8x3x512x512 (![0, 1, 2, 3] : Fin 4 → Fin S8x3x512x512.rank)
  reducesTo_S8x3x512x512_S_d0_1_2_3 : S8x3x512x512.ReducesTo [0, 1, 2, 3] S_
  bcast_S_S8x3x512x512 : S_.BroadcastsInDim S8x3x512x512 (![] : Fin 0 → Fin S8x3x512x512.rank)
  scatter_S512_S2097152x1_S2097152_n_0_0_1_wf : ScatterDims.WF S512 S2097152x1 S2097152 [] [0] [0] 1
  gather_S512_S2097152x1_S2097152_n_0_n_n_0_1_1_wf : GatherDims.WF S512 S2097152x1 S2097152 [] [0] [] [0] [] 1 ![1]

variable [Facts₀]

def scatter_S512_S2097152x1_S2097152_n_0_0_1 : ScatterDims S512 S2097152x1 S2097152 where
  updateWindowDims := []
  insertedWindowDims := [0]
  scatterDimsToOperandDims := [0]
  indexVectorDim := 1
  wf := scatter_S512_S2097152x1_S2097152_n_0_0_1_wf
def gather_S512_S2097152x1_S2097152_n_0_n_n_0_1_1 : GatherDims S512 S2097152x1 S2097152 where
  offsetDims := []
  collapsedSliceDims := [0]
  operandBatchingDims := []
  startIndicesBatchingDims := []
  startIndexMap := [0]
  indexVectorDim := 1
  sliceSizes := ![1]
  wf := gather_S512_S2097152x1_S2097152_n_0_n_n_0_1_1_wf

class Facts : Prop extends Facts₀ where

variable [Facts]
-- ==== Proof.Spec.lean ====
/-
  The computation both programs perform, stated once over plain arrays and free of either program's text.

  Inputs: two images `a`, `b` of shape 8×3×512×512 and an integer region map `mk` of shape 8×512×512.
    * `chan a b`      the per-pixel loss summed over the three channels, `∑_c |a − b|` (8×512×512);
    * `segW cs mk`    each pixel's weight: the mean of `cs` over the pixels that share its (batch, region) segment,
                      through a scatter-add into 512 bins, a count of the bins, and a gather back;
    * `nrm3 w`        the weights divided by their global maximum when that is positive, then clamped to [0, 1];
    * `up4 w`, `nrm4 w`  the same after the weights are repeated over the channel axis (what the reference does);
    * `refOut`        the mean of `|a − b| · (weight · 1 + 1)` as ONE sum over all four axes, divided by the count;
    * `blockTerm`, `chain`  the same total accumulated row-block by row-block (eight blocks of 64 rows), each block
                      summed axis by axis, as the kernel's second call does; `chanBlock` is the first call's block.
-/
import Idealize.ShloMosaic.PureOps.Ideal
import Idealize.ShloMosaic.Lib.ValueIdx

noncomputable section

namespace Cert.Spec

open Idealize.ShloMosaic

abbrev A4 : Shape := ⟨4, ![8, 3, 512, 512]⟩
abbrev A3 : Shape := ⟨3, ![8, 512, 512]⟩
abbrev A31 : Shape := ⟨4, ![8, 1, 512, 512]⟩
abbrev B4 : Shape := ⟨4, ![8, 3, 64, 512]⟩
abbrev B3 : Shape := ⟨3, ![8, 64, 512]⟩
abbrev B31 : Shape := ⟨4, ![8, 1, 64, 512]⟩
abbrev C3 : Shape := ⟨3, ![8, 3, 64]⟩
abbrev C2 : Shape := ⟨2, ![8, 3]⟩
abbrev P8 : Shape := ⟨1, ![8]⟩
abbrev P811 : Shape := ⟨3, ![8, 1, 1]⟩
abbrev Q18 : Shape := ⟨2, ![1, 8]⟩
abbrev Q1 : Shape := ⟨1, ![1]⟩
abbrev O11 : Shape := ⟨2, ![1, 1]⟩
abbrev Sc : Shape := ⟨0, ![]⟩
abbrev Fl : Shape := ⟨1, ![2097152]⟩
abbrev Fl1 : Shape := ⟨2, ![2097152, 1]⟩
abbrev Bins : Shape := ⟨1, ![512]⟩

theorem hSc : 0 < Sc.numel := by decide
theorem bc_P8_P811 : P8.BroadcastsInDim P811 (![0] : Fin 1 → Fin P811.rank) := by decide
theorem bc_Sc_P811 : Sc.BroadcastsInDim P811 (![] : Fin 0 → Fin P811.rank) := by decide
theorem bc_P811_A3 : P811.BroadcastsInDim A3 (![0, 1, 2] : Fin 3 → Fin A3.rank) := by decide
theorem sc_A3_Fl : A3.ShapeCasts Fl := by decide
theorem sc_Fl_A3 : Fl.ShapeCasts A3 := by decide
theorem bc_Sc_Bins : Sc.BroadcastsInDim Bins (![] : Fin 0 → Fin Bins.rank) := by decide
theorem bc_Fl_Fl1 : Fl.BroadcastsInDim Fl1 (![0] : Fin 1 → Fin Fl1.rank) := by decide
theorem bc_Sc_A3 : Sc.BroadcastsInDim A3 (![] : Fin 0 → Fin A3.rank) := by decide
theorem bc_Sc_A4 : Sc.BroadcastsInDim A4 (![] : Fin 0 → Fin A4.rank) := by decide
theorem bc_Sc_Fl : Sc.BroadcastsInDim Fl (![] : Fin 0 → Fin Fl.rank) := by decide
theorem bc_A3_A31 : A3.BroadcastsInDim A31 (![0, 2, 3] : Fin 3 → Fin A31.rank) := by decide
theorem bc_A31_A4 : A31.BroadcastsInDim A4 (![0, 1, 2, 3] : Fin 4 → Fin A4.rank) := by decide
theorem red_A3_Sc : A3.ReducesTo [0, 1, 2] Sc := by decide
theorem red_A4_Sc : A4.ReducesTo [0, 1, 2, 3] Sc := by decide
theorem red_A4_A3 : A4.ReducesTo [1] A3 := by decide
theorem rd_B4_B3 : B4.Reduces [1] B3 := by decide
theorem rd_B4_C3 : B4.Reduces [3] C3 := by decide
theorem rd_C3_C2 : C3.Reduces [2] C2 := by decide
theorem rd_C2_P8 : C2.Reduces [1] P8 := by decide
theorem rd_Q18_Q1 : Q18.Reduces [1] Q1 := by decide
theorem sc_B3_B3 : B3.ShapeCasts B3 := by decide
theorem sc_B3_B31 : B3.ShapeCasts B31 := by decide
theorem br_B31_B4 : B31.Broadcasts B4 := by decide
theorem sc_P8_Q18 : P8.ShapeCasts Q18 := by decide
theorem sc_Q1_O11 : Q1.ShapeCasts O11 := by decide
theorem sc_O11_O11 : O11.ShapeCasts O11 := by decide
theorem sc_O11_Sc : O11.ShapeCasts Sc := by decide
theorem inpos_O11 : ∀ a, (![0, 0] : Fin 2 → Nat) a < O11.size a := by decide

variable {F : FTy → Type} [FloatOps F]

/-- The dimension numbers of the scatter into the 512 bins: one index per update, the index picks the bin. -/
def scat : ScatterDims Bins Fl1 Fl where
  updateWindowDims := []
  insertedWindowDims := [0]
  scatterDimsToOperandDims := [0]
  indexVectorDim := 1

/-- The dimension numbers of the gather back from the 512 bins: one bin per index. -/
def gath : GatherDims Bins Fl1 Fl where
  offsetDims := []
  collapsedSliceDims := [0]
  operandBatchingDims := []
  startIndicesBatchingDims := []
  startIndexMap := [0]
  indexVectorDim := 1
  sliceSizes := ![1]

/-- The channel sum of the absolute difference, `∑_c |a − b|`, from zero. -/
def chan (a b : FVec F A4 .f32) : FVec F A3 .f32 :=
  Host.reduceAdd (Host.absf (subf a b)) (constant Sc .f32 0x00000000#32) red_A4_A3 hSc

/-- Each pixel's segment number, flattened: its region id plus 64 times its batch index. -/
def segIds (mk : IVec A3 32) : IVec Fl 32 :=
  shapeCast Fl (addi mk (broadcastInDim A3 ![0, 1, 2] bc_P811_A3 (muli (broadcastInDim P811 ![0] bc_P8_P811 (iotaInDim P8 32 0)) (broadcastInDim P811 ![] bc_Sc_P811 (constantI Sc 32 64#32))))) sc_A3_Fl

/-- The mean of `cs` over each of the 512 segments: the segment's sum over three times its pixel count, the
    denominator at least one. -/
def segMean (cs : FVec F A3 .f32) (ids : IVec Fl 32) : FVec F Bins .f32 :=
  Host.divf
    (Host.scatterAdd scat (broadcastInDim Bins ![] bc_Sc_Bins (constant Sc .f32 0x00000000#32)) (broadcastInDim Fl1 ![0] bc_Fl_Fl1 ids) (shapeCast Fl cs sc_A3_Fl))
    (maximumf (mulf (Host.scatterAdd scat (broadcastInDim Bins ![] bc_Sc_Bins (constant Sc .f32 0x00000000#32)) (broadcastInDim Fl1 ![0] bc_Fl_Fl1 ids) (shapeCast Fl (broadcastInDim A3 ![] bc_Sc_A3 (constant Sc .f32 0x3F800000#32)) sc_A3_Fl)) (broadcastInDim Bins ![] bc_Sc_Bins (constant Sc .f32 0x40400000#32))) (broadcastInDim Bins ![] bc_Sc_Bins (constant Sc .f32 0x3F800000#32)))

/-- Each pixel's weight: its segment's mean, gathered back (a negative index wrapped by 512 first). -/
def segW (cs : FVec F A3 .f32) (mk : IVec A3 32) : FVec F A3 .f32 :=
  shapeCast A3 (Host.gather gath (segMean cs (segIds mk)) (broadcastInDim Fl1 ![0] bc_Fl_Fl1 (select (cmpi .slt (segIds mk) (broadcastInDim Fl ![] bc_Sc_Fl (constantI Sc 32 0#32))) (addi (segIds mk) (broadcastInDim Fl ![] bc_Sc_Fl (constantI Sc 32 512#32))) (segIds mk)))) sc_Fl_A3

/-- Normalise by a given maximum `mxv` when it is positive, then clamp to [0, 1]; over any shape. -/
def nrmWith {s : Shape} (hb : Sc.BroadcastsInDim s (![] : Fin 0 → Fin s.rank)) (mxv : FVec F Sc .f32) (w : FVec F s .f32) : FVec F s .f32 :=
  minimumf (broadcastInDim s ![] hb (id (constant Sc .f32 0x3F800000#32)))
    (maximumf (broadcastInDim s ![] hb (id (constant Sc .f32 0x00000000#32)))
      (select (broadcastInDim s ![] hb (cmpf .ogt mxv (constant Sc .f32 0x00000000#32)))
        (Host.divf w (broadcastInDim s ![] hb (select (cmpf .ogt mxv (constant Sc .f32 0x00000000#32)) mxv (id (constant Sc .f32 0x3F800000#32)))))
        w))

/-- The maximum of the weights over all three axes, from minus infinity. -/
def mx3 (w : FVec F A3 .f32) : FVec F Sc .f32 :=
  Host.reduce FloatOps.maximumf w (constant Sc .f32 0xFF800000#32) red_A3_Sc hSc
/-- The maximum of a four-axis array over all its axes, from minus infinity. -/
def mx4 (w : FVec F A4 .f32) : FVec F Sc .f32 :=
  Host.reduce FloatOps.maximumf w (constant Sc .f32 0xFF800000#32) red_A4_Sc hSc
/-- The weights repeated over the channel axis. -/
def up4 (w : FVec F A3 .f32) : FVec F A4 .f32 :=
  broadcastInDim A4 ![0, 1, 2, 3] bc_A31_A4 (broadcastInDim A31 ![0, 2, 3] bc_A3_A31 w)
/-- The normalised, clamped weights over three axes (the kernel's host code). -/
def nrm3 (w : FVec F A3 .f32) : FVec F A3 .f32 := nrmWith bc_Sc_A3 (mx3 w) w
/-- The normalised, clamped weights after repeating over the channels (the reference). -/
def nrm4 (w : FVec F A3 .f32) : FVec F A4 .f32 := nrmWith bc_Sc_A4 (mx4 (up4 w)) (up4 w)

/-- The reference's result from the channel-repeated weights `w4`: one sum over all four axes of
    `|a − b| · (w4 · 1 + 1)` from zero, divided by the number of elements 6291456. -/
def refOut (a b w4 : FVec F A4 .f32) : FVec F Sc .f32 :=
  Host.divf (Host.reduceAdd (mulf (Host.absf (subf a b)) (addf (mulf w4 (broadcastInDim A4 ![] bc_Sc_A4 (constant Sc .f32 0x3F800000#32))) (broadcastInDim A4 ![] bc_Sc_A4 (constant Sc .f32 0x3F800000#32)))) (constant Sc .f32 0x00000000#32) red_A4_Sc hSc) (constant Sc .f32 0x4AC00000#32)

/-- The kernel's result from the accumulator cell `acc`: the cell divided by 6291456. -/
def kerOut (acc : FVec F O11 .f32) : FVec F Sc .f32 :=
  Host.divf (shapeCast Sc acc sc_O11_Sc) (constant Sc .f32 0x4AC00000#32)

/-- The first call's block: the channel sum of `|x0 − x1|` over a block of 64 rows. -/
def chanBlock (x0 x1 : FVec F B4 .f32) : FVec F B3 .f32 :=
  multiReduction .add [1] B3 (absf (subf x0 x1)) 0x00000000#32 rd_B4_B3 (.inl rfl) rfl

/-- The second call's step on one block of 64 rows: the running cell `xo` plus the block's
    `|x0 − x1| · (x2 · 1 + 1)` summed over columns, rows, channels and batch in that order. -/
def blockTerm (x0 x1 : FVec F B4 .f32) (x2 : FVec F B3 .f32) (xo : FVec F O11 .f32) : FVec F O11 .f32 :=
  addf (shapeCast O11 xo sc_O11_O11)
    (broadcast O11 (extractAt ![0, 0] (shapeCast O11 (multiReduction .add [1] Q1 (shapeCast Q18 (multiReduction .add [1] P8 (multiReduction .add [2] C2 (multiReduction .add [3] C3
      (mulf (absf (subf x0 x1)) (broadcastTo B4 (addf (mulf (shapeCast B31 (shapeCast B3 x2 sc_B3_B3) sc_B3_B31) (broadcast B31 (Scalar.ofBits .f32 0x3F800000#32))) (broadcast B31 (Scalar.ofBits .f32 0x3F800000#32))) br_B31_B4))
      0x00000000#32 rd_B4_C3 (.inl rfl) rfl) 0x00000000#32 rd_C3_C2 (.inl rfl) rfl) 0x00000000#32 rd_C2_P8 (.inl rfl) rfl) sc_P8_Q18) 0x00000000#32 rd_Q18_Q1 (.inl rfl) rfl) sc_Q1_O11) inpos_O11))

/-- One element's contribution to the total: `|u − v| · (z · 1 + 1)`. -/
def pix (u v z : F .f32) : F .f32 :=
  FloatOps.mulf (FloatOps.absf (FloatOps.subf u v)) (FloatOps.addf (FloatOps.mulf z (Scalar.ofBits .f32 0x3F800000#32)) (Scalar.ofBits .f32 0x3F800000#32))

/-- An index of the four-axis array without its channel coordinate. -/
def dropC (i : A4.Idx) : A3.Idx := ValueIdx.ix3 (i 0) (i 2) (i 3)

/-- The cell the first grid point starts from: zero. -/
def zeroCell : FVec F O11 .f32 := broadcast O11 (Scalar.ofBits .f32 0x00000000#32)

/-- Rows `64 t … 64 t + 63` of a four-axis array. -/
def blk4 {α : Type} (a : A4.Idx → α) (t : Fin 8) : B4.Idx → α :=
  fun y => a (ValueIdx.ix4 (y 0) (y 1) ⟨64 * t.val + (y 2).val, by have h2 : (y 2).val < 64 := (y 2).isLt; have ht : t.val < 8 := t.isLt; show _ < 512; omega⟩ (y 3))
/-- Rows `64 t … 64 t + 63` of a three-axis array. -/
def blk3 {α : Type} (w : A3.Idx → α) (t : Fin 8) : B3.Idx → α :=
  fun y => w (ValueIdx.ix3 (y 0) ⟨64 * t.val + (y 1).val, by have h1 : (y 1).val < 64 := (y 1).isLt; have ht : t.val < 8 := t.isLt; show _ < 512; omega⟩ (y 2))

/-- The accumulator cell after grid point `n`: from zero, one `blockTerm` per block of rows, in order. -/
def chain (a b : FVec F A4 .f32) (w : FVec F A3 .f32) : (n : ℕ) → n < 8 → FVec F O11 .f32
  | 0, h => blockTerm (blk4 a ⟨0, h⟩) (blk4 b ⟨0, h⟩) (blk3 w ⟨0, h⟩) zeroCell
  | n + 1, h => blockTerm (blk4 a ⟨n + 1, h⟩) (blk4 b ⟨n + 1, h⟩) (blk3 w ⟨n + 1, h⟩) (chain a b w n (Nat.lt_of_succ_lt h))

end Cert.Spec

end
-- ==== Proof.KTail.lean ====
/-
  The host operations after the second call: the 1×1 accumulator array reshaped to a scalar and divided by the
  element count. So the result buffer holds `Spec.kerOut` of what the second call leaves in its output array.
-/
import proofs.«105719_j35673998361264_1_alg».proof.Proof.Gen.KernelIdeal.Frame
import proofs.«105719_j35673998361264_1_alg».proof.Proof.Spec
import Idealize.ShloMosaic.Lib.StableHlo.Run
set_option maxRecDepth 16384

noncomputable section

namespace Cert.KernelIdeal.KTail

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result buffer after the last stretch: the second call's output array, reshaped and divided by 6291456. -/
theorem W9_v40 (c : Dev nD) :
    W9 m ρ c (Proc.devRef .tc main_v40) = Spec.kerOut ((dat1 (V7 m ρ) c).arrAt 3 cfg1.N) := by
  rw [← W8_arr m ρ c 3]
  show StableHlo.after hostOps2 (W8 m ρ c) (Proc.devRef .tc main_v40) = _
  after_results
  rfl

end Cert.KernelIdeal.KTail

end
-- ==== Proof.KMid.lean ====
/-
  The host operations between the two calls, read as values. From the first call's output array (the channel sums) and
  the region map, the stretch computes each pixel's segment number, the mean of the channel sums over each segment, and
  gathers it back (`Spec.segW`); then it divides by the global maximum when that is positive and clamps to [0, 1]
  (`Spec.nrm3`): that is what the second call's third window reads. The stretch is read in four steps, each a function of
  the buffers it starts from, so that no step sees the text of the one before. The two image arguments reach the second
  call as launched: no host operation writes them and the first call only reads them.
-/
import proofs.«105719_j35673998361264_1_alg».proof.Proof.Gen.KernelIdeal.Frame
import proofs.«105719_j35673998361264_1_alg».proof.Proof.Spec
import Idealize.ShloMosaic.Lib.StableHlo.Run
set_option maxRecDepth 16384

noncomputable section

namespace Cert.KernelIdeal.KMid

open Cert.KernelIdeal Cert.KernelIdeal.Gen
open Idealize.ShloMosaic Idealize.ShloMosaic.TcCoe Idealize.SL.Sem
open Idealize.ShloMosaic.Pipeline (Dat)

variable {F : FTy → Type} [FloatOps F]

/-- Step 1: the segment numbers. -/
abbrev opsIds : List (HloOp τ sig (Elt F)) :=
  [ StableHlo.nullary main_v1 (iotaInDim S8 32 0),
    StableHlo.unary main_v1 main_v2 (broadcastInDim S8x1x1 ![0] bcast_S8_S8x1x1_0 : (⟨S8, .i32⟩ : BufTy).Contents (Elt F) → (⟨S8x1x1, .i32⟩ : BufTy).Contents (Elt F)),
    StableHlo.nullary main_c (constantI S_ 32 64#32),
    StableHlo.unary main_c main_v3 (broadcastInDim S8x1x1 ![] bcast_S_S8x1x1 : (⟨S_, .i32⟩ : BufTy).Contents (Elt F) → (⟨S8x1x1, .i32⟩ : BufTy).Contents (Elt F)),
    StableHlo.binary main_v2 main_v3 main_v4 (muli : (⟨S8x1x1, .i32⟩ : BufTy).Contents (Elt F) → (⟨S8x1x1, .i32⟩ : BufTy).Contents (Elt F) → (⟨S8x1x1, .i32⟩ : BufTy).Contents (Elt F)),
    StableHlo.unary main_v4 main_v5 (broadcastInDim S8x512x512 ![0, 1, 2] bcast_S8x1x1_S8x512x512_0_1_2 : (⟨S8x1x1, .i32⟩ : BufTy).Contents (Elt F) → (⟨S8x512x512, .i32⟩ : BufTy).Contents (Elt F)),
    StableHlo.binary main_arg2 main_v5 main_v6 (addi : (⟨S8x512x512, .i32⟩ : BufTy).Contents (Elt F) → (⟨S8x512x512, .i32⟩ : BufTy).Contents (Elt F) → (⟨S8x512x512, .i32⟩ : BufTy).Contents (Elt F)),
    StableHlo.reshape main_v6 main_v7 rfl shapeCasts_S8x512x512_S2097152 ]
/-- Step 2: the segment sums, the segment counts, the means. -/
abbrev opsMean : List (HloOp τ sig (Elt F)) :=
  [ StableHlo.reshape main_v0 main_v8 rfl shapeCasts_S8x512x512_S2097152,
    StableHlo.nullary main_cst (constant S_ .f32 0x00000000#32),
    StableHlo.unary main_cst main_v9 (broadcastInDim S512 ![] bcast_S_S512 : (⟨S_, .f32⟩ : BufTy).Contents (Elt F) → (⟨S512, .f32⟩ : BufTy).Contents (Elt F)),
    StableHlo.unary main_v7 main_v10 (broadcastInDim S2097152x1 ![0] bcast_S2097152_S2097152x1_0 : (⟨S2097152, .i32⟩ : BufTy).Contents (Elt F) → (⟨S2097152x1, .i32⟩ : BufTy).Contents (Elt F)),
    StableHlo.ternary main_v9 main_v10 main_v8 main_v11 ((fun x i u => Host.scatterAdd scatter_S512_S2097152x1_S2097152_n_0_0_1 x i u) : (⟨S512, .f32⟩ : BufTy).Contents (Elt F) → (⟨S2097152x1, .i32⟩ : BufTy).Contents (Elt F) → (⟨S2097152, .f32⟩ : BufTy).Contents (Elt F) → (⟨S512, .f32⟩ : BufTy).Contents (Elt F)),
    StableHlo.nullary main_cst_0 (constant S_ .f32 0x3F800000#32),
    StableHlo.unary main_cst_0 main_v12 (broadcastInDim S8x512x512 ![] bcast_S_S8x512x512 : (⟨S_, .f32⟩ : BufTy).Contents (Elt F) → (⟨S8x512x512, .f32⟩ : BufTy).Contents (Elt F)),
    StableHlo.reshape main_v12 main_v13 rfl shapeCasts_S8x512x512_S2097152,
    StableHlo.nullary main_cst_1 (constant S_ .f32 0x00000000#32),
    StableHlo.unary main_cst_1 main_v14 (broadcastInDim S512 ![] bcast_S_S512 : (⟨S_, .f32⟩ : BufTy).Contents (Elt F) → (⟨S512, .f32⟩ : BufTy).Contents (Elt F)),
    StableHlo.unary main_v7 main_v15 (broadcastInDim S2097152x1 ![0] bcast_S2097152_S2097152x1_0 : (⟨S2097152, .i32⟩ : BufTy).Contents (Elt F) → (⟨S2097152x1, .i32⟩ : BufTy).Contents (Elt F)),
    StableHlo.ternary main_v14 main_v15 main_v13 main_v16 ((fun x i u => Host.scatterAdd scatter_S512_S2097152x1_S2097152_n_0_0_1 x i u) : (⟨S512, .f32⟩ : BufTy).Contents (Elt F) → (⟨S2097152x1, .i32⟩ : BufTy).Contents (Elt F) → (⟨S2097152, .f32⟩ : BufTy).Contents (Elt F) → (⟨S512, .f32⟩ : BufTy).Contents (Elt F)),
    StableHlo.nullary main_cst_2 (constant S_ .f32 0x40400000#32),
    StableHlo.unary main_cst_2 main_v17 (broadcastInDim S512 ![] bcast_S_S512 : (⟨S_, .f32⟩ : BufTy).Contents (Elt F) → (⟨S512, .f32⟩ : BufTy).Contents (Elt F)),
    StableHlo.binary main_v16 main_v17 main_v18 (mulf : (⟨S512, .f32⟩ : BufTy).Contents (Elt F) → (⟨S512, .f32⟩ : BufTy).Contents (Elt F) → (⟨S512, .f32⟩ : BufTy).Contents (Elt F)),
    StableHlo.nullary main_cst_3 (constant S_ .f32 0x3F800000#32),
    StableHlo.unary main_cst_3 main_v19 (broadcastInDim S512 ![] bcast_S_S512 : (⟨S_, .f32⟩ : BufTy).Contents (Elt F) → (⟨S512, .f32⟩ : BufTy).Contents (Elt F)),
    StableHlo.binary main_v18 main_v19 main_v20 (maximumf : (⟨S512, .f32⟩ : BufTy).Contents (Elt F) → (⟨S512, .f32⟩ : BufTy).Contents (Elt F) → (⟨S512, .f32⟩ : BufTy).Contents (Elt F)),
    StableHlo.binary main_v11 main_v20 main_v21 (Host.divf : (⟨S512, .f32⟩ : BufTy).Contents (Elt F) → (⟨S512, .f32⟩ : BufTy).Contents (Elt F) → (⟨S512, .f32⟩ : BufTy).Contents (Elt F)) ]
/-- Step 3: the wrapped indices and the gather back to pixels. -/
abbrev opsGather : List (HloOp τ sig (Elt F)) :=
  [ StableHlo.nullary main_c_4 (constantI S_ 32 0#32),
    StableHlo.unary main_c_4 main_v22 (broadcastInDim S2097152 ![] bcast_S_S2097152 : (⟨S_, .i32⟩ : BufTy).Contents (Elt F) → (⟨S2097152, .i32⟩ : BufTy).Contents (Elt F)),
    StableHlo.binary main_v7 main_v22 main_v23 (cmpi .slt : (⟨S2097152, .i32⟩ : BufTy).Contents (Elt F) → (⟨S2097152, .i32⟩ : BufTy).Contents (Elt F) → (⟨S2097152, .i1⟩ : BufTy).Contents (Elt F)),
    StableHlo.nullary main_c_5 (constantI S_ 32 512#32),
    StableHlo.unary main_c_5 main_v24 (broadcastInDim S2097152 ![] bcast_S_S2097152 : (⟨S_, .i32⟩ : BufTy).Contents (Elt F) → (⟨S2097152, .i32⟩ : BufTy).Contents (Elt F)),
    StableHlo.binary main_v7 main_v24 main_v25 (addi : (⟨S2097152, .i32⟩ : BufTy).Contents (Elt F) → (⟨S2097152, .i32⟩ : BufTy).Contents (Elt F) → (⟨S2097152, .i32⟩ : BufTy).Contents (Elt F)),
    StableHlo.ternary main_v23 main_v25 main_v7 main_v26 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v26 main_v27 (broadcastInDim S2097152x1 ![0] bcast_S2097152_S2097152x1_0 : (⟨S2097152, .i32⟩ : BufTy).Contents (Elt F) → (⟨S2097152x1, .i32⟩ : BufTy).Contents (Elt F)),
    StableHlo.binary main_v21 main_v27 main_v28 ((fun x i => Host.gather gather_S512_S2097152x1_S2097152_n_0_n_n_0_1_1 x i) : (⟨S512, .f32⟩ : BufTy).Contents (Elt F) → (⟨S2097152x1, .i32⟩ : BufTy).Contents (Elt F) → (⟨S2097152, .f32⟩ : BufTy).Contents (Elt F)),
    StableHlo.reshape main_v28 main_v29 rfl shapeCasts_S2097152_S8x512x512 ]
/-- Step 4: the global maximum. -/
abbrev opsMax : List (HloOp τ sig (Elt F)) :=
  [ StableHlo.nullary main_cst_6 (constant S_ .f32 0xFF800000#32),
    StableHlo.binary main_v29 main_cst_6 main_v30 ((fun x v => Host.reduce FloatOps.maximumf x v reducesTo_S8x512x512_S_d0_1_2 h_S_) : (⟨S8x512x512, .f32⟩ : BufTy).Contents (Elt F) → (⟨S_, .f32⟩ : BufTy).Contents (Elt F) → (⟨S_, .f32⟩ : BufTy).Contents (Elt F)) ]
/-- Step 5, first part: the two comparisons of the maximum with zero. -/
abbrev opsCmp : List (HloOp τ sig (Elt F)) :=
  [ StableHlo.nullary main_cst_7 (constant S_ .f32 0x00000000#32),
    StableHlo.binary main_v30 main_cst_7 main_v31 (cmpf .ogt : (⟨S_, .f32⟩ : BufTy).Contents (Elt F) → (⟨S_, .f32⟩ : BufTy).Contents (Elt F) → (⟨S_, .i1⟩ : BufTy).Contents (Elt F)),
    StableHlo.nullary main_cst_8 (constant S_ .f32 0x00000000#32),
    StableHlo.binary main_v30 main_cst_8 main_v32 (cmpf .ogt : (⟨S_, .f32⟩ : BufTy).Contents (Elt F) → (⟨S_, .f32⟩ : BufTy).Contents (Elt F) → (⟨S_, .i1⟩ : BufTy).Contents (Elt F)),
    StableHlo.nullary main_cst_9 (constant S_ .f32 0x3F800000#32) ]

/-- The first stretch is these steps in order. -/
theorem hostOps1_split : (hostOps1 : List (HloOp τ sig (Elt F))) = opsIds ++ (opsMean ++ (opsGather ++ (opsMax ++ opsCmp))) := rfl

/-- The gather back to pixels, from the means and the segment numbers. -/
def gatherW (mean : FVec F Spec.Bins .f32) (ids : IVec Spec.Fl 32) : FVec F Spec.A3 .f32 :=
  shapeCast Spec.A3 (Host.gather Spec.gath mean (broadcastInDim Spec.Fl1 ![0] Spec.bc_Fl_Fl1 (select (cmpi .slt ids (broadcastInDim Spec.Fl ![] Spec.bc_Sc_Fl (constantI Spec.Sc 32 0#32))) (addi ids (broadcastInDim Spec.Fl ![] Spec.bc_Sc_Fl (constantI Spec.Sc 32 512#32))) ids))) Spec.sc_Fl_A3

theorem segW_eq (cs : FVec F Spec.A3 .f32) (mk : IVec Spec.A3 32) :
    Spec.segW cs mk = gatherW (Spec.segMean cs (Spec.segIds mk)) (Spec.segIds mk) := rfl

theorem ids_of (V : Valuation τ sig (Elt F)) :
    StableHlo.after (opsIds (F := F)) V (Proc.devRef .tc main_v7) = Spec.segIds (V (Proc.devRef .tc main_arg2)) := by
  after_results
  rfl
theorem ids_keeps_v0 (V : Valuation τ sig (Elt F)) :
    StableHlo.after (opsIds (F := F)) V (Proc.devRef .tc main_v0) = V (Proc.devRef .tc main_v0) := by
  after_results

theorem mean_of (V : Valuation τ sig (Elt F)) :
    StableHlo.after (opsMean (F := F)) V (Proc.devRef .tc main_v21)
      = Spec.segMean (V (Proc.devRef .tc main_v0)) (V (Proc.devRef .tc main_v7)) := by
  after_results
  rfl
theorem mean_keeps_v7 (V : Valuation τ sig (Elt F)) :
    StableHlo.after (opsMean (F := F)) V (Proc.devRef .tc main_v7) = V (Proc.devRef .tc main_v7) := by
  after_results

theorem gather_of (V : Valuation τ sig (Elt F)) :
    StableHlo.after (opsGather (F := F)) V (Proc.devRef .tc main_v29)
      = gatherW (V (Proc.devRef .tc main_v21)) (V (Proc.devRef .tc main_v7)) := by
  after_results
  rfl

theorem max_of (V : Valuation τ sig (Elt F)) :
    StableHlo.after (opsMax (F := F)) V (Proc.devRef .tc main_v30) = Spec.mx3 (V (Proc.devRef .tc main_v29)) := by
  after_results
  rfl
theorem max_keeps_v29 (V : Valuation τ sig (Elt F)) :
    StableHlo.after (opsMax (F := F)) V (Proc.devRef .tc main_v29) = V (Proc.devRef .tc main_v29) := by
  after_results

set_option maxHeartbeats 1000000 in
/-- The normalisation and the clamp, the maximum taken as the buffer that holds it. -/
theorem nrm_of (V : Valuation τ sig (Elt F)) :
    StableHlo.after hostOps1_5 (StableHlo.after hostOps1_4 (StableHlo.after hostOps1_3 (StableHlo.after hostOps1_2
      (StableHlo.after hostOps1_1 (StableHlo.after (opsCmp (F := F)) V))))) (Proc.devRef .tc main_v37)
      = Spec.nrmWith Spec.bc_Sc_A3 (V (Proc.devRef .tc main_v30)) (V (Proc.devRef .tc main_v29)) := by
  after_results_simp
  simp only [StableHlo.TRef.ofBuf, StableHlo.TRef.toBuf, cast_eq]
  rfl

variable (m : (ℓ : Loc nD τ sig) → Buf (Elt F) ℓ) (ρ : Dev nD → PrngReg)

/-- The weight map the second call reads: the normalised, clamped segment means of the first call's output. -/
theorem W7_v37 (c : Dev nD) :
    W7 m ρ c (Proc.devRef .tc main_v37)
      = Spec.nrm3 (Spec.segW (W1 m ρ c (Proc.devRef .tc main_v0)) (m ((c : Thread nD τ).loc main_arg2))) := by
  show StableHlo.after hostOps1_5 (StableHlo.after hostOps1_4 (StableHlo.after hostOps1_3 (StableHlo.after hostOps1_2
    (StableHlo.after hostOps1_1 (StableHlo.after hostOps1 (W1 m ρ c)))))) (Proc.devRef .tc main_v37) = _
  rw [hostOps1_split, StableHlo.after_append, StableHlo.after_append, StableHlo.after_append, StableHlo.after_append, nrm_of, max_of,
    max_keeps_v29, gather_of, mean_of, mean_keeps_v7, ids_of, ids_keeps_v0, W1_of_ne m ρ c main_arg2 (by decide)]
  rfl

set_option maxHeartbeats 4000000 in
/-- The first image reaches the second call as launched. -/
theorem W7_arg0 (c : Dev nD) : W7 m ρ c (Proc.devRef .tc main_arg0) = m ((c : Thread nD τ).loc main_arg0) := by
  show StableHlo.after hostOps1_5 (StableHlo.after hostOps1_4 (StableHlo.after hostOps1_3 (StableHlo.after hostOps1_2
    (StableHlo.after hostOps1_1 (StableHlo.after hostOps1 (W1 m ρ c)))))) (Proc.devRef .tc main_arg0) = _
  after_results_simp
  exact (W1_arr m ρ c 0).trans (((dat0 (V0 m ρ) c).arrAt_in 0 rfl _).trans (A_eq0 (V0 m ρ) c 0))

set_option maxHeartbeats 4000000 in
/-- The second image reaches the second call as launched. -/
theorem W7_arg1 (c : Dev nD) : W7 m ρ c (Proc.devRef .tc main_arg1) = m ((c : Thread nD τ).loc main_arg1) := by
  show StableHlo.after hostOps1_5 (StableHlo.after hostOps1_4 (StableHlo.after hostOps1_3 (StableHlo.after hostOps1_2
    (StableHlo.after hostOps1_1 (StableHlo.after hostOps1 (W1 m ρ c)))))) (Proc.devRef .tc main_arg1) = _
  after_results_simp
  exact (W1_arr m ρ c 1).trans (((dat0 (V0 m ρ) c).arrAt_in 1 rfl _).trans (A_eq0 (V0 m ρ) c 1))

end Cert.KernelIdeal.KMid

end
-- ==== Proof.SpecChan.lean ====
/-
  The first call's block is a block of the channel sum: summing `|x0 − x1|` over the channel axis of a block of 64 rows
  gives those 64 rows of the whole array's channel sum.
-/
import proofs.«105719_j35673998361264_1_alg».proof.Proof.Spec
import Idealize.ShloMosaic.PureOps.Ideal.Laws
import Idealize.ShloMosaic.Lib.Pipeline.Value
import Idealize.ShloMosaic.Lib.ValueLayout

noncomputable section

namespace Cert.Spec

open Idealize.ShloMosaic

/-- The whole array's channel axis is dropped the same way as a block's. -/
theorem rd_A4_A3 : A4.Reduces [1] A3 := by decide

/-- A block's index with channel `k` inserted, moved down by `64 t` rows, is the whole array's index at the moved row
    with channel `k` inserted. -/
theorem blk4_lift {α : Type} (a : A4.Idx → α) (t : Fin 8) (p : Fin 8) (q : Fin 64) (r : Fin 512) (k : Fin 3)
    (hq : 64 * t.val + q.val < 512) :
    blk4 a t (rd_B4_B3.lift (ValueIdx.ix3 p q r) k)
      = a (rd_A4_A3.lift (ValueIdx.ix3 p ⟨64 * t.val + q.val, hq⟩ r) k) := by
  unfold blk4
  refine congrArg a (funext fun c => ?_)
  match c with
  | ⟨0, _⟩ => exact Fin.ext rfl
  | ⟨1, _⟩ => exact Fin.ext rfl
  | ⟨2, _⟩ => exact Fin.ext rfl
  | ⟨3, _⟩ => exact Fin.ext rfl

/-- Rows `64 t … 64 t + 63` of the channel sum are the channel sum of those rows. -/
theorem chanBlock_eq (a b : FVec Ideal A4 .f32) (t : Fin 8) :
    chanBlock (blk4 a t) (blk4 b t) = blk3 (chan a b) t := by
  funext y
  obtain ⟨p, q, r, rfl⟩ : ∃ (p : Fin 8) (q : Fin 64) (r : Fin 512), y = ValueIdx.ix3 p q r :=
    ⟨y 0, y 1, y 2, ValueIdx.eq_ix3 y⟩
  have hq : 64 * t.val + q.val < 512 := by have := q.isLt; have := t.isLt; omega
  unfold chanBlock
  refine (Ideal.multiReduction_add_single (absf (subf (blk4 a t) (blk4 b t))) 0x00000000#32 rd_B4_B3
    (.inl rfl) rfl (ValueIdx.ix3 p q r)).trans ?_
  -- the right side: the host's sum from the zero word over the channel axis, at the moved row
  show _ = Ideal.hostReduceAdd red_A4_A3 (Host.absf (subf a b)) (Ideal.ofBits .f32 0x00000000#32)
    (ValueIdx.ix3 p ⟨64 * t.val + q.val, hq⟩ r)
  rw [Ideal.hostReduceAdd_single red_A4_A3 rd_A4_A3, Ideal.ofBits_zero_f32, zero_add]
  refine Finset.sum_congr rfl fun k _ => ?_
  -- term by term: the same absolute difference, read at the same element of the whole arrays
  show FloatOps.absf (FloatOps.subf (blk4 a t (rd_B4_B3.lift (ValueIdx.ix3 p q r) k))
      (blk4 b t (rd_B4_B3.lift (ValueIdx.ix3 p q r) k))) = _
  rw [blk4_lift a t p q r k hq, blk4_lift b t p q r k hq]
  rfl

end Cert.Spec

end
-- ==== Proof.KChan.lean ====
/-
  The first call, read as a value. Each grid point writes rows `64 t … 64 t + 63` of the output array with the channel
  sum of `|input − target|` over those rows; the eight blocks tile the array, so after the call the array is the channel
  sum of the whole images.
-/
import proofs.«105719_j35673998361264_1_alg».proof.Proof.Gen.KernelIdeal.Frame
import proofs.«105719_j35673998361264_1_alg».proof.Proof.Spec
import proofs.«105719_j35673998361264_1_alg».proof.Proof.SpecChan
import Idealize.ShloMosaic.Lib.Pipeline.Value
set_option maxRecDepth 16384

noncomputable section

namespace Cert.KernelIdeal.KChan

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The body's payload is the channel sum of the absolute difference of its two loaded blocks. -/
theorem pay_eq (x0 x1 : Vec Ideal S8x3x64x512 .f32) : k0_pay1 x0 x1 = Spec.chanBlock x0 x1 := rfl

/-- The grid has eight points. -/
theorem lt8 (t : Fin cfg0.N) : t.val < 8 := by have := t.isLt; have h : cfg0.N = 8 := N_0; omega

/-- The printed index maps, decided over the grid: at point `t` every window's block is block `t` along the row
    axis and block 0 along every other axis. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 4) = 0 ∧ win0_1.index t (1 : Fin 4) = 0 ∧ win0_1.index t (2 : Fin 4) = t.val ∧ win0_1.index t (3 : Fin 4) = 0
    ∧ win0_2.index t (0 : Fin 3) = 0 ∧ win0_2.index t (1 : Fin 3) = t.val ∧ win0_2.index t (2 : Fin 3) = 0 :=
  (by decide +kernel : ∀ t : Fin grid0.N, _)

/-- The first image's block at point `t` is rows `64 t … 64 t + 63` of the image. -/
theorem iblk_arg0 (c : Dev nD) (t : Fin cfg0.N) :
    (iblk0 (V0 m ρ) c 0 t : Vec Ideal S8x3x64x512 .f32)
      = Spec.blk4 (m ((c : Thread nD τ).loc main_arg0)) ⟨t.val, lt8 t⟩ := by
  obtain ⟨e0, e1, e2, e3, -⟩ := idx_facts t
  funext y
  unfold iblk0
  rw [View.read_apply]
  show m ((c : Thread nD τ).loc main_arg0) _ = m ((c : Thread nD τ).loc main_arg0) _
  congr 1
  funext a
  apply Fin.ext
  match a with
  | ⟨0, _⟩ => show win0_0.index t (0 : Fin 4) * 8 + 1 * (y 0).val = (y 0).val; omega
  | ⟨1, _⟩ => show win0_0.index t (1 : Fin 4) * 3 + 1 * (y 1).val = (y 1).val; omega
  | ⟨2, _⟩ => show win0_0.index t (2 : Fin 4) * 64 + 1 * (y 2).val = 64 * t.val + (y 2).val; omega
  | ⟨3, _⟩ => show win0_0.index t (3 : Fin 4) * 512 + 1 * (y 3).val = (y 3).val; omega

/-- The second image's block at point `t` is rows `64 t … 64 t + 63` of the image. -/
theorem iblk_arg1 (c : Dev nD) (t : Fin cfg0.N) :
    (iblk0 (V0 m ρ) c 1 t : Vec Ideal S8x3x64x512 .f32)
      = Spec.blk4 (m ((c : Thread nD τ).loc main_arg1)) ⟨t.val, lt8 t⟩ := by
  obtain ⟨-, -, -, -, e0, e1, e2, e3, -⟩ := idx_facts t
  funext y
  unfold iblk0
  rw [View.read_apply]
  show m ((c : Thread nD τ).loc main_arg1) _ = m ((c : Thread nD τ).loc main_arg1) _
  congr 1
  funext a
  apply Fin.ext
  match a with
  | ⟨0, _⟩ => show win0_1.index t (0 : Fin 4) * 8 + 1 * (y 0).val = (y 0).val; omega
  | ⟨1, _⟩ => show win0_1.index t (1 : Fin 4) * 3 + 1 * (y 1).val = (y 1).val; omega
  | ⟨2, _⟩ => show win0_1.index t (2 : Fin 4) * 64 + 1 * (y 2).val = 64 * t.val + (y 2).val; omega
  | ⟨3, _⟩ => show win0_1.index t (3 : Fin 4) * 512 + 1 * (y 3).val = (y 3).val; omega

/-- The output window's block of a whole array `G` at point `t` is rows `64 t … 64 t + 63` of `G`. -/
theorem oblk_read (t : Fin cfg0.N) (G : Spec.A3.Idx → EReal) :
    (((cfg0.win 2).blk t).view.read (Elt Ideal) G : Vec Ideal S8x64x512 .f32) = Spec.blk3 G ⟨t.val, lt8 t⟩ := by
  obtain ⟨-, -, -, -, -, -, -, -, e0, e1, e2⟩ := idx_facts t
  funext y
  rw [View.read_apply]
  unfold Spec.blk3
  refine congrArg G (funext fun a => ?_)
  apply Fin.ext
  match a with
  | ⟨0, _⟩ => show win0_2.index t (0 : Fin 3) * 8 + 1 * (y 0).val = (y 0).val; omega
  | ⟨1, _⟩ => show win0_2.index t (1 : Fin 3) * 64 + 1 * (y 1).val = 64 * t.val + (y 1).val; omega
  | ⟨2, _⟩ => show win0_2.index t (2 : Fin 3) * 512 + 1 * (y 2).val = (y 2).val; omega

/-- What point `t` writes back is block `t` of the channel sum of the two images. -/
theorem flushed_eq (c : Dev nD) (t : Fin cfg0.N) :
    (dat0 (V0 m ρ) c).flushed 2 t = ((cfg0.win 2).blk t).view.read (Elt Ideal)
      (Spec.chan (F := Ideal) (m ((c : Thread nD τ).loc main_arg0)) (m ((c : Thread nD τ).loc main_arg1))) := by
  show (cfg0.win 2).cut (grid0.coords t) ((dat0 (V0 m ρ) c).after 2 t) = _
  rw [after0_2]
  unfold out0_2
  rw [View.canon_unit_zero hz3]
  simp only [View.ld_unit_zero (S := S8x3x64x512) hz4]
  rw [pay_eq, iblk_arg0, iblk_arg1, Spec.chanBlock_eq]
  exact (oblk_read t _).symm

/-- An index of the array is in point `t`'s block iff each coordinate is in the block's range on its axis. -/
theorem mem_blk (t : Fin cfg0.N) (i : S8x512x512.Idx) :
    i ∈ ((cfg0.win 2).blk t).view.set ↔ ∀ a : Fin 3, win0_2.index t a * S8x64x512.size a ≤ (i a).val
      ∧ (i a).val < win0_2.index t a * S8x64x512.size a + S8x64x512.size a := by
  show i ∈ ((View.whole main_v0).slice (win0_2.rect t)).set ↔ _
  rw [View.set_slice_whole, Rect.mem_set_unit]
  exact Iff.rfl

/-- Every index of the array lies in the block of the point its row falls in, `row / 64`. -/
theorem covered (i : S8x512x512.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 512 := (i 2).isLt
  have hN : cfg0.N = 8 := N_0
  obtain ⟨t, ht⟩ : ∃ t : Fin cfg0.N, t.val = (i 1).val / 64 := ⟨⟨(i 1).val / 64, by rw [hN]; omega⟩, rfl⟩
  obtain ⟨-, -, -, -, -, -, -, -, e0, e1, e2⟩ := idx_facts t
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 64 ≤ (i 1).val ∧ (i 1).val < win0_2.index t (1 : Fin 3) * 64 + 64; omega
  | ⟨2, _⟩ => show win0_2.index t (2 : Fin 3) * 512 ≤ (i 2).val ∧ (i 2).val < win0_2.index t (2 : Fin 3) * 512 + 512; omega

/-- After the first call its output array holds the channel sum of the absolute difference of the two images. -/
theorem W1_v0 (c : Dev nD) :
    W1 m ρ c (Proc.devRef .tc main_v0)
      = Spec.chan (F := Ideal) (m ((c : Thread nD τ).loc main_arg0)) (m ((c : Thread nD τ).loc main_arg1)) :=
  (W1_arr m ρ c 2).trans
    ((dat0 (V0 m ρ) c).arrAt_eq_of_cover 2 _ (fun t _ => flushed_eq m ρ c t) covered)

end Cert.KernelIdeal.KChan

end
-- ==== Proof.KAcc.lean ====
/-
  The second call, read as a value. Its 1×1 output block is never moved and is written back after the last grid point
  only; the first point resets it to zero and every point adds its block's total. So after the call the output array holds
  `Spec.chain` of the arrays the call read, at the last point.
-/
import proofs.«105719_j35673998361264_1_alg».proof.Proof.Gen.KernelIdeal.Frame
import proofs.«105719_j35673998361264_1_alg».proof.Proof.Spec
import Idealize.ShloMosaic.Lib.Pipeline.Value
import Idealize.ShloMosaic.Lib.Tactic
set_option maxRecDepth 16384

noncomputable section

namespace Cert.KernelIdeal.KAcc

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a later grid point the body leaves, in the output cell holding `xo`, its one store's payload: the cell plus
    the block's total, the four loads reading the whole buffers. -/
theorem out_B (c : Dev nD) (i : grid1.Coords) (a1 : Memref sig .tc .vmem S8x3x64x512 .f32) (h1 : a1.IsWhole)
    (a2 : Memref sig .tc .vmem S8x3x64x512 .f32) (h2 : a2.IsWhole) (a3 : Memref sig .tc .vmem S8x64x512 .f32) (h3 : a3.IsWhole)
    (a4 : Memref sig .tc .vmem S1x1 .f32) (h4 : a4.IsWhole) (hc : ¬cond1_0 i)
    (x0 x1 : Vec F S8x3x64x512 .f32) (x2 : Vec F S8x64x512 .f32) (xo : Vec F S1x1 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz2]
  simp only [View.readAt_eq_ld, h1.read_unread, h2.read_unread, h3.read_unread, h4.read_unread,
    View.ld_unit_zero (S := S8x3x64x512) hz4, View.ld_unit_zero (S := S8x64x512) hz3, View.ld_unit_zero (S := S1x1) hz2]

/-- At the first grid point the body stores the zero cell, reads it back, and leaves the zero cell plus the block's
    total: the later store covers the cell, and the read-back of the first store is its payload. -/
theorem out_A (c : Dev nD) (i : grid1.Coords) (a1 : Memref sig .tc .vmem S8x3x64x512 .f32) (h1 : a1.IsWhole)
    (a2 : Memref sig .tc .vmem S8x3x64x512 .f32) (h2 : a2.IsWhole) (a3 : Memref sig .tc .vmem S8x64x512 .f32) (h3 : a3.IsWhole)
    (a4 : Memref sig .tc .vmem S1x1 .f32) (h4 : a4.IsWhole) (hc : cond1_0 i)
    (x0 x1 : Vec F S8x3x64x512 .f32) (x2 : Vec F S8x64x512 .f32) :
    out1_A_3 c i a1 h1 a2 h2 a3 h3 a4 h4 hc x0 x1 x2 = k1_pay2 x0 x1 x2 k1_pay1 := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S8x3x64x512) hz4, View.ld_unit_zero (S := S8x64x512) hz3]

/-- The body's accumulation step is the specification's block term (the same operations in the same order), -/
theorem pay2_eq (x0 x1 : Vec F S8x3x64x512 .f32) (x2 : Vec F S8x64x512 .f32) (xo : Vec F S1x1 .f32) :
    k1_pay2 x0 x1 x2 xo = Spec.blockTerm x0 x1 x2 xo := rfl

/-- and the cell it starts from is the specification's zero cell. -/
theorem pay1_eq : (k1_pay1 : FVec F S1x1 .f32) = Spec.zeroCell := rfl

theorem N1' : cfg1.N = 8 := N_1

/-- A grid point of the second call as a block number. -/
abbrev pt (t : Fin cfg1.N) : Fin 8 := ⟨t.val, lt_of_lt_of_eq t.isLt N1'⟩

/-- The two image windows step along the row axis only: block `t` starts at row block `t`, at zero elsewhere. -/
theorem idx0 : ∀ t : Fin cfg1.N, win1_0.index t 0 = 0 ∧ win1_0.index t 1 = 0 ∧ win1_0.index t 2 = t.val ∧ win1_0.index t 3 = 0 :=
  (by decide +kernel : ∀ t : Fin grid1.N, win1_0.index t 0 = 0 ∧ win1_0.index t 1 = 0 ∧ win1_0.index t 2 = t.val ∧ win1_0.index t 3 = 0)
theorem idx1 : ∀ t : Fin cfg1.N, win1_1.index t 0 = 0 ∧ win1_1.index t 1 = 0 ∧ win1_1.index t 2 = t.val ∧ win1_1.index t 3 = 0 :=
  (by decide +kernel : ∀ t : Fin grid1.N, win1_1.index t 0 = 0 ∧ win1_1.index t 1 = 0 ∧ win1_1.index t 2 = t.val ∧ win1_1.index t 3 = 0)
/-- So does the weight window. -/
theorem idx2 : ∀ t : Fin cfg1.N, win1_2.index t 0 = 0 ∧ win1_2.index t 1 = t.val ∧ win1_2.index t 2 = 0 :=
  (by decide +kernel : ∀ t : Fin grid1.N, win1_2.index t 0 = 0 ∧ win1_2.index t 1 = t.val ∧ win1_2.index t 2 = 0)

/-- The first image's block at point `t` is its rows `64 t … 64 t + 63`: a block's coordinate is the block index times
    the block size plus the coordinate inside. -/
theorem blk_0 (c : Dev nD) (t : Fin cfg1.N) :
    (iblk1 V c 0 t : Vec F S8x3x64x512 .f32) = Spec.blk4 (V c main_arg0) (pt t) := by
  obtain ⟨i0, i1, i2, i3⟩ := idx0 t
  funext y
  unfold iblk1 Spec.blk4
  rw [View.read_apply]
  show V c main_arg0 _ = V c main_arg0 _
  congr 1
  funext a
  apply Fin.ext
  match a with
  | ⟨0, _⟩ => show win1_0.index t 0 * 8 + 1 * (y 0).val = (y 0).val; rw [i0]; omega
  | ⟨1, _⟩ => show win1_0.index t 1 * 3 + 1 * (y 1).val = (y 1).val; rw [i1]; omega
  | ⟨2, _⟩ => show win1_0.index t 2 * 64 + 1 * (y 2).val = 64 * t.val + (y 2).val; rw [i2]; omega
  | ⟨3, _⟩ => show win1_0.index t 3 * 512 + 1 * (y 3).val = (y 3).val; rw [i3]; omega

/-- The second image's block likewise. -/
theorem blk_1 (c : Dev nD) (t : Fin cfg1.N) :
    (iblk1 V c 1 t : Vec F S8x3x64x512 .f32) = Spec.blk4 (V c main_arg1) (pt t) := by
  obtain ⟨i0, i1, i2, i3⟩ := idx1 t
  funext y
  unfold iblk1 Spec.blk4
  rw [View.read_apply]
  show V c main_arg1 _ = V c main_arg1 _
  congr 1
  funext a
  apply Fin.ext
  match a with
  | ⟨0, _⟩ => show win1_1.index t 0 * 8 + 1 * (y 0).val = (y 0).val; rw [i0]; omega
  | ⟨1, _⟩ => show win1_1.index t 1 * 3 + 1 * (y 1).val = (y 1).val; rw [i1]; omega
  | ⟨2, _⟩ => show win1_1.index t 2 * 64 + 1 * (y 2).val = 64 * t.val + (y 2).val; rw [i2]; omega
  | ⟨3, _⟩ => show win1_1.index t 3 * 512 + 1 * (y 3).val = (y 3).val; rw [i3]; omega

/-- The weights' block at point `t` is their rows `64 t … 64 t + 63`. -/
theorem blk_2 (c : Dev nD) (t : Fin cfg1.N) :
    (iblk1 V c 2 t : Vec F S8x64x512 .f32) = Spec.blk3 (V c main_v37) (pt t) := by
  obtain ⟨i0, i1, i2⟩ := idx2 t
  funext y
  unfold iblk1 Spec.blk3
  rw [View.read_apply]
  show V c main_v37 _ = V c main_v37 _
  congr 1
  funext a
  apply Fin.ext
  match a with
  | ⟨0, _⟩ => show win1_2.index t 0 * 8 + 1 * (y 0).val = (y 0).val; rw [i0]; omega
  | ⟨1, _⟩ => show win1_2.index t 1 * 64 + 1 * (y 1).val = 64 * t.val + (y 1).val; rw [i1]; omega
  | ⟨2, _⟩ => show win1_2.index t 2 * 512 + 1 * (y 2).val = (y 2).val; rw [i2]; omega

/-- What the output cell holds after grid point `n` is the specification's chain at `n`: the first point leaves the
    zero cell plus its block's total, each later point adds its block's total to what the point before left. -/
theorem outsAt_eq (c : Dev nD) : ∀ (n : ℕ) (h : n < cfg1.N),
    outsAt1 V c n h = Spec.chain (V c main_arg0) (V c main_arg1) (V c main_v37) n (lt_of_lt_of_eq h N1')
  | 0, h => by
    rw [outsAt1_A V c ⟨0, h⟩ rfl,
      out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
        (ms1_3 ⟨0, h⟩) (hs1_3 ⟨0, h⟩) ((hcond1_0 ⟨0, h⟩).mpr rfl) (iblk1 V c 0 ⟨0, h⟩) (iblk1 V c 1 ⟨0, h⟩) (iblk1 V c 2 ⟨0, h⟩),
      blk_0 V c ⟨0, h⟩, blk_1 V c ⟨0, h⟩, blk_2 V c ⟨0, h⟩, pay2_eq, pay1_eq]
    rfl
  | n + 1, h => by
    have h8 : n + 1 < 8 := lt_of_lt_of_eq h N1'
    have hB : ¬(⟨n + 1, h⟩ : Fin cfg1.N).val % 8 = 0 := by dsimp only; omega
    rw [outsAt1_B V c ⟨n + 1, h⟩ hB]
    refine (out_B c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (ms1_3 ⟨n + 1, h⟩) (hs1_3 ⟨n + 1, h⟩)
        (fun hh => hB ((hcond1_0 ⟨n + 1, h⟩).mp hh)) (iblk1 V c 0 ⟨n + 1, h⟩) (iblk1 V c 1 ⟨n + 1, h⟩) (iblk1 V c 2 ⟨n + 1, h⟩)
        (outsAt1 V c n (Nat.lt_of_succ_lt h))).trans ?_
    rw [blk_0 V c ⟨n + 1, h⟩, blk_1 V c ⟨n + 1, h⟩, blk_2 V c ⟨n + 1, h⟩, pay2_eq, outsAt_eq c n (Nat.lt_of_succ_lt h)]
    rfl

/-- The accumulated cell of the last grid point, as contents of the output array (whose one block is the whole array). -/
abbrev result (c : Dev nD) : Buf (Elt F) ((c : Thread nD τ).loc main_v38) :=
  Spec.chain (V c main_arg0) (V c main_arg1) (V c main_v37) 7 (by decide)

/-- The one write-back, after the last point, writes that cell: block (0, 0) of the 1×1 array read through zero
    offsets is the array. -/
theorem flushed_eq (c : Dev nD) (t : Fin cfg1.N) (hf : (cfg1.win 3).flush t = true) :
    (dat1 V c).flushed 3 t = ((cfg1.win 3).blk t).view.read (Elt F) (result V c) := by
  have h7 : t.val = 7 := by have := (flush1_3 t).mp hf; have := lt_of_lt_of_eq t.isLt N1'; omega
  obtain rfl : t = t1_7 := Fin.ext h7
  show (cfg1.win 3).cut (grid1.coords t1_7) ((dat1 V c).after 3 t1_7) = _
  rw [after1_3, outsAt_eq]
  have hz' : (fun a => win1_3.index t1_7 a * main_v38.ty.shape.size a) = fun _ => 0 := funext fun a => by fin_cases a <;> decide
  exact (Memref.read_access_unit_zero (Elt F) main_v38 hz' (fun a => by rw [congrFun hz' a]; simp) (result V c)).symm

/-- After the second call its output array holds the accumulated cell of the last grid point. -/
theorem acc_final (c : Dev nD) :
    (dat1 V c).arrAt 3 cfg1.N = Spec.chain (V c main_arg0) (V c main_arg1) (V c main_v37) 7 (by decide) :=
  (dat1 V c).arrAt_eq_of_cover 3 (result V c) (flushed_eq V c) fun i =>
    ⟨t1_7, (flush1_3 t1_7).mpr rfl, by
      show i ∈ ((View.whole main_v38).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index t1_7 0 * win1_3.size 0 ≤ (i 0 : Nat)
          ∧ (i 0 : Nat) < win1_3.index t1_7 0 * win1_3.size 0 + win1_3.xsize (grid1.coords t1_7) 0
        rw [show win1_3.index t1_7 0 * win1_3.size 0 = 0 from by decide +kernel,
          show win1_3.xsize (grid1.coords t1_7) 0 = 1 from by decide +kernel]
        omega
      | ⟨1, _⟩ =>
        show win1_3.index t1_7 1 * win1_3.size 1 ≤ (i 1 : Nat)
          ∧ (i 1 : Nat) < win1_3.index t1_7 1 * win1_3.size 1 + win1_3.xsize (grid1.coords t1_7) 1
        rw [show win1_3.index t1_7 1 * win1_3.size 1 = 0 from by decide +kernel,
          show win1_3.xsize (grid1.coords t1_7) 1 = 1 from by decide +kernel]
        omega⟩

end Cert.KernelIdeal.KAcc

end
-- ==== Proof.RefVal.lean ====
/-
  The reference's run, read as a value: its result buffer ends holding `Spec.refOut` of the two images and of the
  normalised, clamped, channel-repeated segment means of their channel sum. The 74 operations are read in eight
  consecutive steps, each a function of the buffers it starts from: the loss array and its channel sum; the segment
  numbers; the segment means; the gather back to pixels; the repeat over channels; the global maximum; the division by
  it when positive and the clamp; the weighted mean.
-/
import proofs.«105719_j35673998361264_1_alg».proof.Proof.RefRunP
import proofs.«105719_j35673998361264_1_alg».proof.Proof.Spec
import Idealize.ShloMosaic.Lib.StableHlo.Run
import Idealize.ShloMosaic.Lib.Pipeline.Frame

set_option maxRecDepth 16384

noncomputable section

namespace Cert.ReferenceIdeal.RefVal

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- Step 1: the loss array `|a − b|` and its channel sum. -/
abbrev opsLoss : List (HloOp τ sig (Elt F)) :=
  [ binary main_arg0 main_arg1 main_v0 (subf : (⟨S8x3x512x512, .f32⟩ : BufTy).Contents (Elt F) → (⟨S8x3x512x512, .f32⟩ : BufTy).Contents (Elt F) → (⟨S8x3x512x512, .f32⟩ : BufTy).Contents (Elt F)),
    unary main_v0 main_v1 (Host.absf : (⟨S8x3x512x512, .f32⟩ : BufTy).Contents (Elt F) → (⟨S8x3x512x512, .f32⟩ : BufTy).Contents (Elt F)),
    nullary main_cst (constant S_ .f32 0x00000000#32),
    binary main_v1 main_cst main_v2 ((fun x v => Host.reduceAdd x v reducesTo_S8x3x512x512_S8x512x512_d1 h_S_) : (⟨S8x3x512x512, .f32⟩ : BufTy).Contents (Elt F) → (⟨S_, .f32⟩ : BufTy).Contents (Elt F) → (⟨S8x512x512, .f32⟩ : BufTy).Contents (Elt F)) ]

/-- Step 2: the segment numbers. -/
abbrev opsIds : List (HloOp τ sig (Elt F)) :=
  [ nullary main_v3 (iotaInDim S8 32 0),
    unary main_v3 main_v4 (broadcastInDim S8x1x1 ![0] bcast_S8_S8x1x1_0 : (⟨S8, .i32⟩ : BufTy).Contents (Elt F) → (⟨S8x1x1, .i32⟩ : BufTy).Contents (Elt F)),
    nullary main_c (constantI S_ 32 64#32),
    unary main_c main_v5 (broadcastInDim S8x1x1 ![] bcast_S_S8x1x1 : (⟨S_, .i32⟩ : BufTy).Contents (Elt F) → (⟨S8x1x1, .i32⟩ : BufTy).Contents (Elt F)),
    binary main_v4 main_v5 main_v6 (muli : (⟨S8x1x1, .i32⟩ : BufTy).Contents (Elt F) → (⟨S8x1x1, .i32⟩ : BufTy).Contents (Elt F) → (⟨S8x1x1, .i32⟩ : BufTy).Contents (Elt F)),
    unary main_v6 main_v7 (broadcastInDim S8x512x512 ![0, 1, 2] bcast_S8x1x1_S8x512x512_0_1_2 : (⟨S8x1x1, .i32⟩ : BufTy).Contents (Elt F) → (⟨S8x512x512, .i32⟩ : BufTy).Contents (Elt F)),
    binary main_arg2 main_v7 main_v8 (addi : (⟨S8x512x512, .i32⟩ : BufTy).Contents (Elt F) → (⟨S8x512x512, .i32⟩ : BufTy).Contents (Elt F) → (⟨S8x512x512, .i32⟩ : BufTy).Contents (Elt F)),
    reshape main_v8 main_v9 rfl shapeCasts_S8x512x512_S2097152 ]

/-- Step 3: the segment sums, the segment counts, the means. -/
abbrev opsMean : List (HloOp τ sig (Elt F)) :=
  [ reshape main_v2 main_v10 rfl shapeCasts_S8x512x512_S2097152,
    nullary main_cst_0 (constant S_ .f32 0x00000000#32),
    unary main_cst_0 main_v11 (broadcastInDim S512 ![] bcast_S_S512 : (⟨S_, .f32⟩ : BufTy).Contents (Elt F) → (⟨S512, .f32⟩ : BufTy).Contents (Elt F)),
    unary main_v9 main_v12 (broadcastInDim S2097152x1 ![0] bcast_S2097152_S2097152x1_0 : (⟨S2097152, .i32⟩ : BufTy).Contents (Elt F) → (⟨S2097152x1, .i32⟩ : BufTy).Contents (Elt F)),
    ternary main_v11 main_v12 main_v10 main_v13 ((fun x i u => Host.scatterAdd scatter_S512_S2097152x1_S2097152_n_0_0_1 x i u) : (⟨S512, .f32⟩ : BufTy).Contents (Elt F) → (⟨S2097152x1, .i32⟩ : BufTy).Contents (Elt F) → (⟨S2097152, .f32⟩ : BufTy).Contents (Elt F) → (⟨S512, .f32⟩ : BufTy).Contents (Elt F)),
    nullary main_cst_1 (constant S_ .f32 0x3F800000#32),
    unary main_cst_1 main_v14 (broadcastInDim S8x512x512 ![] bcast_S_S8x512x512 : (⟨S_, .f32⟩ : BufTy).Contents (Elt F) → (⟨S8x512x512, .f32⟩ : BufTy).Contents (Elt F)),
    reshape main_v14 main_v15 rfl shapeCasts_S8x512x512_S2097152,
    nullary main_cst_2 (constant S_ .f32 0x00000000#32),
    unary main_cst_2 main_v16 (broadcastInDim S512 ![] bcast_S_S512 : (⟨S_, .f32⟩ : BufTy).Contents (Elt F) → (⟨S512, .f32⟩ : BufTy).Contents (Elt F)),
    unary main_v9 main_v17 (broadcastInDim S2097152x1 ![0] bcast_S2097152_S2097152x1_0 : (⟨S2097152, .i32⟩ : BufTy).Contents (Elt F) → (⟨S2097152x1, .i32⟩ : BufTy).Contents (Elt F)),
    ternary main_v16 main_v17 main_v15 main_v18 ((fun x i u => Host.scatterAdd scatter_S512_S2097152x1_S2097152_n_0_0_1 x i u) : (⟨S512, .f32⟩ : BufTy).Contents (Elt F) → (⟨S2097152x1, .i32⟩ : BufTy).Contents (Elt F) → (⟨S2097152, .f32⟩ : BufTy).Contents (Elt F) → (⟨S512, .f32⟩ : BufTy).Contents (Elt F)),
    nullary main_cst_3 (constant S_ .f32 0x40400000#32),
    unary main_cst_3 main_v19 (broadcastInDim S512 ![] bcast_S_S512 : (⟨S_, .f32⟩ : BufTy).Contents (Elt F) → (⟨S512, .f32⟩ : BufTy).Contents (Elt F)),
    binary main_v18 main_v19 main_v20 (mulf : (⟨S512, .f32⟩ : BufTy).Contents (Elt F) → (⟨S512, .f32⟩ : BufTy).Contents (Elt F) → (⟨S512, .f32⟩ : BufTy).Contents (Elt F)),
    nullary main_cst_4 (constant S_ .f32 0x3F800000#32),
    unary main_cst_4 main_v21 (broadcastInDim S512 ![] bcast_S_S512 : (⟨S_, .f32⟩ : BufTy).Contents (Elt F) → (⟨S512, .f32⟩ : BufTy).Contents (Elt F)),
    binary main_v20 main_v21 main_v22 (maximumf : (⟨S512, .f32⟩ : BufTy).Contents (Elt F) → (⟨S512, .f32⟩ : BufTy).Contents (Elt F) → (⟨S512, .f32⟩ : BufTy).Contents (Elt F)),
    binary main_v13 main_v22 main_v23 (Host.divf : (⟨S512, .f32⟩ : BufTy).Contents (Elt F) → (⟨S512, .f32⟩ : BufTy).Contents (Elt F) → (⟨S512, .f32⟩ : BufTy).Contents (Elt F)) ]

/-- Step 4: the wrapped indices and the gather back to pixels. -/
abbrev opsGather : List (HloOp τ sig (Elt F)) :=
  [ nullary main_c_5 (constantI S_ 32 0#32),
    unary main_c_5 main_v24 (broadcastInDim S2097152 ![] bcast_S_S2097152 : (⟨S_, .i32⟩ : BufTy).Contents (Elt F) → (⟨S2097152, .i32⟩ : BufTy).Contents (Elt F)),
    binary main_v9 main_v24 main_v25 (cmpi .slt : (⟨S2097152, .i32⟩ : BufTy).Contents (Elt F) → (⟨S2097152, .i32⟩ : BufTy).Contents (Elt F) → (⟨S2097152, .i1⟩ : BufTy).Contents (Elt F)),
    nullary main_c_6 (constantI S_ 32 512#32),
    unary main_c_6 main_v26 (broadcastInDim S2097152 ![] bcast_S_S2097152 : (⟨S_, .i32⟩ : BufTy).Contents (Elt F) → (⟨S2097152, .i32⟩ : BufTy).Contents (Elt F)),
    binary main_v9 main_v26 main_v27 (addi : (⟨S2097152, .i32⟩ : BufTy).Contents (Elt F) → (⟨S2097152, .i32⟩ : BufTy).Contents (Elt F) → (⟨S2097152, .i32⟩ : BufTy).Contents (Elt F)),
    ternary main_v25 main_v27 main_v9 main_v28 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v28 main_v29 (broadcastInDim S2097152x1 ![0] bcast_S2097152_S2097152x1_0 : (⟨S2097152, .i32⟩ : BufTy).Contents (Elt F) → (⟨S2097152x1, .i32⟩ : BufTy).Contents (Elt F)),
    binary main_v23 main_v29 main_v30 ((fun x i => Host.gather gather_S512_S2097152x1_S2097152_n_0_n_n_0_1_1 x i) : (⟨S512, .f32⟩ : BufTy).Contents (Elt F) → (⟨S2097152x1, .i32⟩ : BufTy).Contents (Elt F) → (⟨S2097152, .f32⟩ : BufTy).Contents (Elt F)),
    reshape main_v30 main_v31 rfl shapeCasts_S2097152_S8x512x512 ]

/-- Step 5: the repeat over the channel axis. -/
abbrev opsUp : List (HloOp τ sig (Elt F)) :=
  [ unary main_v31 main_v32 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v32 main_v33 (broadcastInDim S8x3x512x512 ![0, 1, 2, 3] bcast_S8x1x512x512_S8x3x512x512_0_1_2_3 : (⟨S8x1x512x512, .f32⟩ : BufTy).Contents (Elt F) → (⟨S8x3x512x512, .f32⟩ : BufTy).Contents (Elt F)) ]

/-- Step 6: the global maximum. -/
abbrev opsMax : List (HloOp τ sig (Elt F)) :=
  [ nullary main_cst_7 (constant S_ .f32 0xFF800000#32),
    binary main_v33 main_cst_7 main_v34 ((fun x v => Host.reduce FloatOps.maximumf x v reducesTo_S8x3x512x512_S_d0_1_2_3 h_S_) : (⟨S8x3x512x512, .f32⟩ : BufTy).Contents (Elt F) → (⟨S_, .f32⟩ : BufTy).Contents (Elt F) → (⟨S_, .f32⟩ : BufTy).Contents (Elt F)) ]

/-- Step 7: the division by the maximum when it is positive, the clamp to [0, 1]. -/
abbrev opsNrm : List (HloOp τ sig (Elt F)) :=
  [ nullary main_cst_8 (constant S_ .f32 0x00000000#32),
    binary main_v34 main_cst_8 main_v35 (cmpf .ogt : (⟨S_, .f32⟩ : BufTy).Contents (Elt F) → (⟨S_, .f32⟩ : BufTy).Contents (Elt F) → (⟨S_, .i1⟩ : BufTy).Contents (Elt F)),
    nullary main_cst_9 (constant S_ .f32 0x00000000#32),
    binary main_v34 main_cst_9 main_v36 (cmpf .ogt : (⟨S_, .f32⟩ : BufTy).Contents (Elt F) → (⟨S_, .f32⟩ : BufTy).Contents (Elt F) → (⟨S_, .i1⟩ : BufTy).Contents (Elt F)),
    nullary main_cst_10 (constant S_ .f32 0x3F800000#32),
    TRef.unary (TRef.of (T := ⟨S_, .f32⟩) main_cst_10) (TRef.of (T := ⟨S_, .f32⟩) main_call0_v0) id,
    TRef.ternary (TRef.of (T := ⟨S_, .i1⟩) main_v36) (TRef.of (T := ⟨S_, .f32⟩) main_v34) (TRef.of (T := ⟨S_, .f32⟩) main_call0_v0) (TRef.of (T := ⟨S_, .f32⟩) main_v37) select,
    unary main_v37 main_v38 (broadcastInDim S8x3x512x512 ![] bcast_S_S8x3x512x512 : (⟨S_, .f32⟩ : BufTy).Contents (Elt F) → (⟨S8x3x512x512, .f32⟩ : BufTy).Contents (Elt F)),
    binary main_v33 main_v38 main_v39 (Host.divf : (⟨S8x3x512x512, .f32⟩ : BufTy).Contents (Elt F) → (⟨S8x3x512x512, .f32⟩ : BufTy).Contents (Elt F) → (⟨S8x3x512x512, .f32⟩ : BufTy).Contents (Elt F)),
    TRef.ternary (TRef.of (T := ⟨S_, .i1⟩) main_v35) (TRef.of (T := ⟨S8x3x512x512, .f32⟩) main_v39) (TRef.of (T := ⟨S8x3x512x512, .f32⟩) main_v33) (TRef.of (T := ⟨S8x3x512x512, .f32⟩) main_v40) (fun p a b => select (broadcastInDim S8x3x512x512 ![] bcast_S_S8x3x512x512 p) a b),
    nullary main_cst_11 (constant S_ .f32 0x00000000#32),
    nullary main_cst_12 (constant S_ .f32 0x3F800000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S8x3x512x512, .f32⟩) main_call2_v1) (broadcastInDim S8x3x512x512 ![] bcast_S_S8x3x512x512),
    TRef.binary (TRef.of (T := ⟨S8x3x512x512, .f32⟩) main_call2_v1) (TRef.of (T := ⟨S8x3x512x512, .f32⟩) main_v40) (TRef.of (T := ⟨S8x3x512x512, .f32⟩) main_call2_v2) maximumf,
    TRef.unary (TRef.of (T := ⟨S_, .f32⟩) main_cst_12) (TRef.of (T := ⟨S_, .f32⟩) main_call2_v3) id,
    TRef.unary (TRef.of (T := ⟨S_, .f32⟩) main_call2_v3) (TRef.of (T := ⟨S8x3x512x512, .f32⟩) main_call2_v4) (broadcastInDim S8x3x512x512 ![] bcast_S_S8x3x512x512),
    TRef.binary (TRef.of (T := ⟨S8x3x512x512, .f32⟩) main_call2_v4) (TRef.of (T := ⟨S8x3x512x512, .f32⟩) main_call2_v2) (TRef.of (T := ⟨S8x3x512x512, .f32⟩) main_v41) minimumf ]

/-- Step 8: the weighted loss, its sum over all four axes, the division by the count. -/
abbrev opsOut : List (HloOp τ sig (Elt F)) :=
  [ nullary main_cst_13 (constant S_ .f32 0x3F800000#32),
    unary main_cst_13 main_v42 (broadcastInDim S8x3x512x512 ![] bcast_S_S8x3x512x512 : (⟨S_, .f32⟩ : BufTy).Contents (Elt F) → (⟨S8x3x512x512, .f32⟩ : BufTy).Contents (Elt F)),
    binary main_v41 main_v42 main_v43 (mulf : (⟨S8x3x512x512, .f32⟩ : BufTy).Contents (Elt F) → (⟨S8x3x512x512, .f32⟩ : BufTy).Contents (Elt F) → (⟨S8x3x512x512, .f32⟩ : BufTy).Contents (Elt F)),
    nullary main_cst_14 (constant S_ .f32 0x3F800000#32),
    unary main_cst_14 main_v44 (broadcastInDim S8x3x512x512 ![] bcast_S_S8x3x512x512 : (⟨S_, .f32⟩ : BufTy).Contents (Elt F) → (⟨S8x3x512x512, .f32⟩ : BufTy).Contents (Elt F)),
    binary main_v43 main_v44 main_v45 (addf : (⟨S8x3x512x512, .f32⟩ : BufTy).Contents (Elt F) → (⟨S8x3x512x512, .f32⟩ : BufTy).Contents (Elt F) → (⟨S8x3x512x512, .f32⟩ : BufTy).Contents (Elt F)),
    binary main_v1 main_v45 main_v46 (mulf : (⟨S8x3x512x512, .f32⟩ : BufTy).Contents (Elt F) → (⟨S8x3x512x512, .f32⟩ : BufTy).Contents (Elt F) → (⟨S8x3x512x512, .f32⟩ : BufTy).Contents (Elt F)),
    nullary main_cst_15 (constant S_ .f32 0x00000000#32),
    binary main_v46 main_cst_15 main_v47 ((fun x v => Host.reduceAdd x v reducesTo_S8x3x512x512_S_d0_1_2_3 h_S_) : (⟨S8x3x512x512, .f32⟩ : BufTy).Contents (Elt F) → (⟨S_, .f32⟩ : BufTy).Contents (Elt F) → (⟨S_, .f32⟩ : BufTy).Contents (Elt F)),
    nullary main_cst_16 (constant S_ .f32 0x4AC00000#32),
    binary main_v47 main_cst_16 main_v48 (Host.divf : (⟨S_, .f32⟩ : BufTy).Contents (Elt F) → (⟨S_, .f32⟩ : BufTy).Contents (Elt F) → (⟨S_, .f32⟩ : BufTy).Contents (Elt F)) ]

/-- The reference's operations are the eight steps in order. -/
theorem ops_split : (ops : List (HloOp τ sig (Elt F)))
    = opsLoss ++ (opsIds ++ (opsMean ++ (opsGather ++ (opsUp ++ (opsMax ++ (opsNrm ++ opsOut)))))) := rfl

/-- The gather back to pixels, from the means and the segment numbers. -/
def gatherW (mean : FVec F Spec.Bins .f32) (ids : IVec Spec.Fl 32) : FVec F Spec.A3 .f32 :=
  shapeCast Spec.A3 (Host.gather Spec.gath mean (broadcastInDim Spec.Fl1 ![0] Spec.bc_Fl_Fl1 (select (cmpi .slt ids (broadcastInDim Spec.Fl ![] Spec.bc_Sc_Fl (constantI Spec.Sc 32 0#32))) (addi ids (broadcastInDim Spec.Fl ![] Spec.bc_Sc_Fl (constantI Spec.Sc 32 512#32))) ids))) Spec.sc_Fl_A3

theorem segW_eq (cs : FVec F Spec.A3 .f32) (mk : IVec Spec.A3 32) :
    Spec.segW cs mk = gatherW (Spec.segMean cs (Spec.segIds mk)) (Spec.segIds mk) := rfl

theorem nrm4_eq (w : FVec F Spec.A3 .f32) :
    Spec.nrm4 w = Spec.nrmWith Spec.bc_Sc_A4 (Spec.mx4 (Spec.up4 w)) (Spec.up4 w) := rfl

/-- The result from the loss array `l = |a − b|` and the channel-repeated weights `w4`: the sum of `l · (w4 · 1 + 1)` over
    all four axes from zero, divided by the number of elements. -/
def refOutOf (l w4 : FVec F Spec.A4 .f32) : FVec F Spec.Sc .f32 :=
  Host.divf (Host.reduceAdd (mulf l (addf (mulf w4 (broadcastInDim Spec.A4 ![] Spec.bc_Sc_A4 (constant Spec.Sc .f32 0x3F800000#32))) (broadcastInDim Spec.A4 ![] Spec.bc_Sc_A4 (constant Spec.Sc .f32 0x3F800000#32)))) (constant Spec.Sc .f32 0x00000000#32) Spec.red_A4_Sc Spec.hSc) (constant Spec.Sc .f32 0x4AC00000#32)

theorem refOut_eq (a b w4 : FVec F Spec.A4 .f32) : Spec.refOut a b w4 = refOutOf (Host.absf (subf a b)) w4 := rfl

/-! ### Step 1 -/

theorem loss_v1 (V : Valuation τ sig (Elt F)) :
    after (opsLoss (F := F)) V (Proc.devRef .tc main_v1)
      = Host.absf (subf (V (Proc.devRef .tc main_arg0)) (V (Proc.devRef .tc main_arg1))) := by
  after_results
theorem loss_v2 (V : Valuation τ sig (Elt F)) :
    after (opsLoss (F := F)) V (Proc.devRef .tc main_v2)
      = Spec.chan (V (Proc.devRef .tc main_arg0)) (V (Proc.devRef .tc main_arg1)) := by
  after_results
  rfl
theorem loss_keeps_arg0 (V : Valuation τ sig (Elt F)) :
    after (opsLoss (F := F)) V (Proc.devRef .tc main_arg0) = V (Proc.devRef .tc main_arg0) := by
  after_results
theorem loss_keeps_arg1 (V : Valuation τ sig (Elt F)) :
    after (opsLoss (F := F)) V (Proc.devRef .tc main_arg1) = V (Proc.devRef .tc main_arg1) := by
  after_results
theorem loss_keeps_arg2 (V : Valuation τ sig (Elt F)) :
    after (opsLoss (F := F)) V (Proc.devRef .tc main_arg2) = V (Proc.devRef .tc main_arg2) := by
  after_results

/-! ### Step 2 -/

theorem ids_of (V : Valuation τ sig (Elt F)) :
    after (opsIds (F := F)) V (Proc.devRef .tc main_v9) = Spec.segIds (V (Proc.devRef .tc main_arg2)) := by
  after_results
  rfl
theorem ids_keeps_v1 (V : Valuation τ sig (Elt F)) :
    after (opsIds (F := F)) V (Proc.devRef .tc main_v1) = V (Proc.devRef .tc main_v1) := by
  after_results
theorem ids_keeps_v2 (V : Valuation τ sig (Elt F)) :
    after (opsIds (F := F)) V (Proc.devRef .tc main_v2) = V (Proc.devRef .tc main_v2) := by
  after_results
theorem ids_keeps_arg0 (V : Valuation τ sig (Elt F)) :
    after (opsIds (F := F)) V (Proc.devRef .tc main_arg0) = V (Proc.devRef .tc main_arg0) := by
  after_results
theorem ids_keeps_arg1 (V : Valuation τ sig (Elt F)) :
    after (opsIds (F := F)) V (Proc.devRef .tc main_arg1) = V (Proc.devRef .tc main_arg1) := by
  after_results
theorem ids_keeps_arg2 (V : Valuation τ sig (Elt F)) :
    after (opsIds (F := F)) V (Proc.devRef .tc main_arg2) = V (Proc.devRef .tc main_arg2) := by
  after_results

/-! ### Step 3 -/

theorem mean_of (V : Valuation τ sig (Elt F)) :
    after (opsMean (F := F)) V (Proc.devRef .tc main_v23)
      = Spec.segMean (V (Proc.devRef .tc main_v2)) (V (Proc.devRef .tc main_v9)) := by
  after_results
  rfl
theorem mean_keeps_v1 (V : Valuation τ sig (Elt F)) :
    after (opsMean (F := F)) V (Proc.devRef .tc main_v1) = V (Proc.devRef .tc main_v1) := by
  after_results
theorem mean_keeps_v9 (V : Valuation τ sig (Elt F)) :
    after (opsMean (F := F)) V (Proc.devRef .tc main_v9) = V (Proc.devRef .tc main_v9) := by
  after_results
theorem mean_keeps_arg0 (V : Valuation τ sig (Elt F)) :
    after (opsMean (F := F)) V (Proc.devRef .tc main_arg0) = V (Proc.devRef .tc main_arg0) := by
  after_results
theorem mean_keeps_arg1 (V : Valuation τ sig (Elt F)) :
    after (opsMean (F := F)) V (Proc.devRef .tc main_arg1) = V (Proc.devRef .tc main_arg1) := by
  after_results
theorem mean_keeps_arg2 (V : Valuation τ sig (Elt F)) :
    after (opsMean (F := F)) V (Proc.devRef .tc main_arg2) = V (Proc.devRef .tc main_arg2) := by
  after_results

/-! ### Step 4 -/

theorem gather_of (V : Valuation τ sig (Elt F)) :
    after (opsGather (F := F)) V (Proc.devRef .tc main_v31)
      = gatherW (V (Proc.devRef .tc main_v23)) (V (Proc.devRef .tc main_v9)) := by
  after_results
  rfl
theorem gather_keeps_v1 (V : Valuation τ sig (Elt F)) :
    after (opsGather (F := F)) V (Proc.devRef .tc main_v1) = V (Proc.devRef .tc main_v1) := by
  after_results
theorem gather_keeps_arg0 (V : Valuation τ sig (Elt F)) :
    after (opsGather (F := F)) V (Proc.devRef .tc main_arg0) = V (Proc.devRef .tc main_arg0) := by
  after_results
theorem gather_keeps_arg1 (V : Valuation τ sig (Elt F)) :
    after (opsGather (F := F)) V (Proc.devRef .tc main_arg1) = V (Proc.devRef .tc main_arg1) := by
  after_results
theorem gather_keeps_arg2 (V : Valuation τ sig (Elt F)) :
    after (opsGather (F := F)) V (Proc.devRef .tc main_arg2) = V (Proc.devRef .tc main_arg2) := by
  after_results

/-! ### Step 5 -/

theorem up_of (V : Valuation τ sig (Elt F)) :
    after (opsUp (F := F)) V (Proc.devRef .tc main_v33) = Spec.up4 (V (Proc.devRef .tc main_v31)) := by
  after_results
  rfl
theorem up_keeps_v1 (V : Valuation τ sig (Elt F)) :
    after (opsUp (F := F)) V (Proc.devRef .tc main_v1) = V (Proc.devRef .tc main_v1) := by
  after_results
theorem up_keeps_arg0 (V : Valuation τ sig (Elt F)) :
    after (opsUp (F := F)) V (Proc.devRef .tc main_arg0) = V (Proc.devRef .tc main_arg0) := by
  after_results
theorem up_keeps_arg1 (V : Valuation τ sig (Elt F)) :
    after (opsUp (F := F)) V (Proc.devRef .tc main_arg1) = V (Proc.devRef .tc main_arg1) := by
  after_results
theorem up_keeps_arg2 (V : Valuation τ sig (Elt F)) :
    after (opsUp (F := F)) V (Proc.devRef .tc main_arg2) = V (Proc.devRef .tc main_arg2) := by
  after_results

/-! ### Step 6 -/

theorem max_of (V : Valuation τ sig (Elt F)) :
    after (opsMax (F := F)) V (Proc.devRef .tc main_v34) = Spec.mx4 (V (Proc.devRef .tc main_v33)) := by
  after_results
  rfl
theorem max_keeps_v1 (V : Valuation τ sig (Elt F)) :
    after (opsMax (F := F)) V (Proc.devRef .tc main_v1) = V (Proc.devRef .tc main_v1) := by
  after_results
theorem max_keeps_v33 (V : Valuation τ sig (Elt F)) :
    after (opsMax (F := F)) V (Proc.devRef .tc main_v33) = V (Proc.devRef .tc main_v33) := by
  after_results
theorem max_keeps_arg0 (V : Valuation τ sig (Elt F)) :
    after (opsMax (F := F)) V (Proc.devRef .tc main_arg0) = V (Proc.devRef .tc main_arg0) := by
  after_results
theorem max_keeps_arg1 (V : Valuation τ sig (Elt F)) :
    after (opsMax (F := F)) V (Proc.devRef .tc main_arg1) = V (Proc.devRef .tc main_arg1) := by
  after_results
theorem max_keeps_arg2 (V : Valuation τ sig (Elt F)) :
    after (opsMax (F := F)) V (Proc.devRef .tc main_arg2) = V (Proc.devRef .tc main_arg2) := by
  after_results

/-! ### Step 7 -/

set_option maxHeartbeats 1000000 in
theorem nrm_of (V : Valuation τ sig (Elt F)) :
    after (opsNrm (F := F)) V (Proc.devRef .tc main_v41)
      = Spec.nrmWith Spec.bc_Sc_A4 (V (Proc.devRef .tc main_v34)) (V (Proc.devRef .tc main_v33)) := by
  after_results_simp
  simp only [TRef.ofBuf, TRef.toBuf, cast_eq]
  rfl
set_option maxHeartbeats 1000000 in
theorem nrm_keeps_v1 (V : Valuation τ sig (Elt F)) :
    after (opsNrm (F := F)) V (Proc.devRef .tc main_v1) = V (Proc.devRef .tc main_v1) := by
  after_results_simp
set_option maxHeartbeats 1000000 in
theorem nrm_keeps_arg0 (V : Valuation τ sig (Elt F)) :
    after (opsNrm (F := F)) V (Proc.devRef .tc main_arg0) = V (Proc.devRef .tc main_arg0) := by
  after_results_simp
set_option maxHeartbeats 1000000 in
theorem nrm_keeps_arg1 (V : Valuation τ sig (Elt F)) :
    after (opsNrm (F := F)) V (Proc.devRef .tc main_arg1) = V (Proc.devRef .tc main_arg1) := by
  after_results_simp
set_option maxHeartbeats 1000000 in
theorem nrm_keeps_arg2 (V : Valuation τ sig (Elt F)) :
    after (opsNrm (F := F)) V (Proc.devRef .tc main_arg2) = V (Proc.devRef .tc main_arg2) := by
  after_results_simp

/-! ### Step 8 -/

theorem out_of (V : Valuation τ sig (Elt F)) :
    after (opsOut (F := F)) V (Proc.devRef .tc main_v48)
      = refOutOf (V (Proc.devRef .tc main_v1)) (V (Proc.devRef .tc main_v41)) := by
  after_results
  rfl
theorem out_keeps_arg0 (V : Valuation τ sig (Elt F)) :
    after (opsOut (F := F)) V (Proc.devRef .tc main_arg0) = V (Proc.devRef .tc main_arg0) := by
  after_results
theorem out_keeps_arg1 (V : Valuation τ sig (Elt F)) :
    after (opsOut (F := F)) V (Proc.devRef .tc main_arg1) = V (Proc.devRef .tc main_arg1) := by
  after_results
theorem out_keeps_arg2 (V : Valuation τ sig (Elt F)) :
    after (opsOut (F := F)) V (Proc.devRef .tc main_arg2) = V (Proc.devRef .tc main_arg2) := by
  after_results

/-! ### The eight steps chained -/

/-- The result buffer after the whole line, as the program-free function of the three arguments' contents. -/
theorem value (V : Valuation τ sig (Elt F)) :
    after (ops (F := F)) V (Proc.devRef .tc main_v48)
      = Spec.refOut (V (Proc.devRef .tc main_arg0)) (V (Proc.devRef .tc main_arg1))
          (Spec.nrm4 (Spec.segW (Spec.chan (V (Proc.devRef .tc main_arg0)) (V (Proc.devRef .tc main_arg1))) (V (Proc.devRef .tc main_arg2)))) := by
  rw [ops_split, after_append, after_append, after_append, after_append, after_append, after_append, after_append,
    refOut_eq, nrm4_eq, segW_eq,
    out_of, nrm_of, nrm_keeps_v1, max_of, max_keeps_v33, max_keeps_v1, up_of, up_keeps_v1,
    gather_of, gather_keeps_v1, mean_of, mean_keeps_v9, mean_keeps_v1,
    ids_of, ids_keeps_v2, ids_keeps_v1, loss_v2, loss_v1, loss_keeps_arg2]

theorem keeps_arg0 (V : Valuation τ sig (Elt F)) :
    after (ops (F := F)) V (Proc.devRef .tc main_arg0) = V (Proc.devRef .tc main_arg0) := by
  rw [ops_split, after_append, after_append, after_append, after_append, after_append, after_append, after_append,
    out_keeps_arg0, nrm_keeps_arg0, max_keeps_arg0, up_keeps_arg0, gather_keeps_arg0, mean_keeps_arg0, ids_keeps_arg0, loss_keeps_arg0]
theorem keeps_arg1 (V : Valuation τ sig (Elt F)) :
    after (ops (F := F)) V (Proc.devRef .tc main_arg1) = V (Proc.devRef .tc main_arg1) := by
  rw [ops_split, after_append, after_append, after_append, after_append, after_append, after_append, after_append,
    out_keeps_arg1, nrm_keeps_arg1, max_keeps_arg1, up_keeps_arg1, gather_keeps_arg1, mean_keeps_arg1, ids_keeps_arg1, loss_keeps_arg1]
theorem keeps_arg2 (V : Valuation τ sig (Elt F)) :
    after (ops (F := F)) V (Proc.devRef .tc main_arg2) = V (Proc.devRef .tc main_arg2) := by
  rw [ops_split, after_append, after_append, after_append, after_append, after_append, after_append, after_append,
    out_keeps_arg2, nrm_keeps_arg2, max_keeps_arg2, up_keeps_arg2, gather_keeps_arg2, mean_keeps_arg2, ids_keeps_arg2, loss_keeps_arg2]
/-- Every weakly fair execution of the reference terminates with its result at `Spec.refOut …` and its arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = Spec.refOut (m ((c.tc : Thread nD τ).loc main_arg0)) (m ((c.tc : Thread nD τ).loc main_arg1))
            (Spec.nrm4 (Spec.segW (Spec.chan (m ((c.tc : Thread nD τ).loc main_arg0)) (m ((c.tc : Thread nD τ).loc main_arg1)))
              (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (value (launchContents m c)),
    (h c main_arg0).trans (keeps_arg0 (launchContents m c)), (h c main_arg1).trans (keeps_arg1 (launchContents m c)),
    (h c main_arg2).trans (keeps_arg2 (launchContents m c))⟩) (run_all m ρ)

end Cert.ReferenceIdeal.RefVal

end
-- ==== Proof.SpecChain.lean ====
/-
  The accumulated cell is the total: eight steps of `blockTerm` from zero, each summing one block of 64 rows axis by
  axis, add up — over the extended reals, where addition is commutative and associative — to the single sum over all
  four axes of `|a − b| · (w · 1 + 1)`.
-/
import proofs.«105719_j35673998361264_1_alg».proof.Proof.Spec
import Idealize.ShloMosaic.PureOps.Ideal.Laws
import Idealize.ShloMosaic.Lib.Pipeline.Value
import Idealize.ShloMosaic.Lib.ValueLayout
import Mathlib.Algebra.BigOperators.Fin

noncomputable section

namespace Cert.Spec

open Idealize.ShloMosaic
open Idealize.ShloMosaic.ValueIdx

/-! ## One block's summand at an index -/

/-- The factor the weights contribute, `x2 · 1 + 1` with the channel axis put back as a unit axis, read at
    `(b, 0, h, l)`: the weight at `(b, h, l)` times one plus one. -/
theorem chain_wfac_apply (x2 : FVec Ideal B3 .f32) (b : Fin 8) (h : Fin 64) (l : Fin 512) :
    addf (mulf (shapeCast B31 (shapeCast B3 x2 sc_B3_B3) sc_B3_B31) (broadcast B31 (Scalar.ofBits .f32 0x3F800000#32)))
        (broadcast B31 (Scalar.ofBits .f32 0x3F800000#32)) (ix4 b (0 : Fin 1) h l)
      = FloatOps.addf (FloatOps.mulf (x2 (ix3 b h l)) (Scalar.ofBits .f32 0x3F800000#32)) (Scalar.ofBits .f32 0x3F800000#32) := by
  have e1 : shapeCast B31 (shapeCast B3 x2 sc_B3_B3) sc_B3_B31 (ix4 b (0 : Fin 1) h l) = x2 (ix3 b h l) := by
    refine (shapeCast_apply _ sc_B3_B31 _ (ix3 b h l) ?_).trans ?_
    · rw [Shape.rowMajor_val_three, Shape.rowMajor_val_four]
      show (b.val * 64 + h.val) * 512 + l.val = ((b.val * 1 + 0) * 64 + h.val) * 512 + l.val
      omega
    · exact shapeCast_apply _ sc_B3_B3 _ _ rfl
  exact congrArg (fun z => FloatOps.addf (FloatOps.mulf z (Scalar.ofBits .f32 0x3F800000#32)) (Scalar.ofBits .f32 0x3F800000#32)) e1

/-- The block's summand `|x0 − x1| · (x2 · 1 + 1)`, the weights repeated over the channels, read at `(b, c, h, l)`. -/
theorem chain_term_apply (x0 x1 : FVec Ideal B4 .f32) (x2 : FVec Ideal B3 .f32) (b : Fin 8) (c : Fin 3) (h : Fin 64) (l : Fin 512) :
    mulf (absf (subf x0 x1)) (broadcastTo B4 (addf (mulf (shapeCast B31 (shapeCast B3 x2 sc_B3_B3) sc_B3_B31) (broadcast B31 (Scalar.ofBits .f32 0x3F800000#32))) (broadcast B31 (Scalar.ofBits .f32 0x3F800000#32))) br_B31_B4) (ix4 b c h l)
      = pix (x0 (ix4 b c h l)) (x1 (ix4 b c h l)) (x2 (ix3 b h l)) := by
  have e2 : broadcastTo B4 (addf (mulf (shapeCast B31 (shapeCast B3 x2 sc_B3_B3) sc_B3_B31) (broadcast B31 (Scalar.ofBits .f32 0x3F800000#32))) (broadcast B31 (Scalar.ofBits .f32 0x3F800000#32))) br_B31_B4 (ix4 b c h l)
      = FloatOps.addf (FloatOps.mulf (x2 (ix3 b h l)) (Scalar.ofBits .f32 0x3F800000#32)) (Scalar.ofBits .f32 0x3F800000#32) :=
    (broadcastTo_apply _ br_B31_B4 (ix4 b c h l) (ix4 b (0 : Fin 1) h l)
      (fun a => match a with | ⟨0, _⟩ => rfl | ⟨1, _⟩ => rfl | ⟨2, _⟩ => rfl | ⟨3, _⟩ => rfl)).trans (chain_wfac_apply x2 b h l)
  exact congrArg (FloatOps.mulf (FloatOps.absf (FloatOps.subf (x0 (ix4 b c h l)) (x1 (ix4 b c h l))))) e2

/-! ## The four one-axis sums

Each reduction drops one axis; read at an index of what is left it is the sum, over that axis's coordinates, of the
source at the index with the coordinate put back. -/

/-- Putting a column back into `(b, c, h)`. -/
theorem chain_lift_col (b : Fin 8) (c : Fin 3) (h : Fin 64) (l : Fin 512) : rd_B4_C3.lift (ix3 b c h) l = ix4 b c h l := by
  funext a
  match a with
  | ⟨0, _⟩ => exact Fin.ext rfl
  | ⟨1, _⟩ => exact Fin.ext rfl
  | ⟨2, _⟩ => exact Fin.ext rfl
  | ⟨3, _⟩ => exact Fin.ext rfl

/-- Putting a row back into `(b, c)`. -/
theorem chain_lift_row (b : Fin 8) (c : Fin 3) (h : Fin 64) : rd_C3_C2.lift (ix2 b c) h = ix3 b c h := by
  funext a
  match a with
  | ⟨0, _⟩ => exact Fin.ext rfl
  | ⟨1, _⟩ => exact Fin.ext rfl
  | ⟨2, _⟩ => exact Fin.ext rfl

/-- Putting a channel back into `b`. -/
theorem chain_lift_chan (b : Fin 8) (c : Fin 3) : rd_C2_P8.lift (ix1 b) c = ix2 b c := by
  funext a
  match a with
  | ⟨0, _⟩ => exact Fin.ext rfl
  | ⟨1, _⟩ => exact Fin.ext rfl

/-- Putting a batch entry back beside the unit axis. -/
theorem chain_lift_batch (u : Fin 1) (b : Fin 8) : rd_Q18_Q1.lift (ix1 u) b = ix2 u b := by
  funext a
  match a with
  | ⟨0, _⟩ => exact Fin.ext rfl
  | ⟨1, _⟩ => exact Fin.ext rfl

/-- The sum over the columns, at `(b, c, h)`. -/
theorem chain_sum_cols (src : FVec Ideal B4 .f32) (hφ : FKind.Formats .f32)
    (hacc : (0x00000000#32 : BitVec 32) = FKind.add.neutral .f32 hφ) (b : Fin 8) (c : Fin 3) (h : Fin 64) :
    multiReduction (F := Ideal) .add [3] C3 src 0x00000000#32 rd_B4_C3 hφ hacc (ix3 b c h) = ∑ l : Fin 512, src (ix4 b c h l) :=
  (Ideal.multiReduction_add_single src _ rd_B4_C3 hφ hacc (ix3 b c h)).trans
    (Finset.sum_congr rfl fun l _ => congrArg src (chain_lift_col b c h l))

/-- The sum over the rows, at `(b, c)`. -/
theorem chain_sum_rows (src : FVec Ideal C3 .f32) (hφ : FKind.Formats .f32)
    (hacc : (0x00000000#32 : BitVec 32) = FKind.add.neutral .f32 hφ) (b : Fin 8) (c : Fin 3) :
    multiReduction (F := Ideal) .add [2] C2 src 0x00000000#32 rd_C3_C2 hφ hacc (ix2 b c) = ∑ h : Fin 64, src (ix3 b c h) :=
  (Ideal.multiReduction_add_single src _ rd_C3_C2 hφ hacc (ix2 b c)).trans
    (Finset.sum_congr rfl fun h _ => congrArg src (chain_lift_row b c h))

/-- The sum over the channels, at `b`. -/
theorem chain_sum_chans (src : FVec Ideal C2 .f32) (hφ : FKind.Formats .f32)
    (hacc : (0x00000000#32 : BitVec 32) = FKind.add.neutral .f32 hφ) (b : Fin 8) :
    multiReduction (F := Ideal) .add [1] P8 src 0x00000000#32 rd_C2_P8 hφ hacc (ix1 b) = ∑ c : Fin 3, src (ix2 b c) :=
  (Ideal.multiReduction_add_single src _ rd_C2_P8 hφ hacc (ix1 b)).trans
    (Finset.sum_congr rfl fun c _ => congrArg src (chain_lift_chan b c))

/-- The sum over the batch, at the one index left. -/
theorem chain_sum_batch (src : FVec Ideal Q18 .f32) (hφ : FKind.Formats .f32)
    (hacc : (0x00000000#32 : BitVec 32) = FKind.add.neutral .f32 hφ) (u : Fin 1) :
    multiReduction (F := Ideal) .add [1] Q1 src 0x00000000#32 rd_Q18_Q1 hφ hacc (ix1 u) = ∑ b : Fin 8, src (ix2 u b) :=
  (Ideal.multiReduction_add_single src _ rd_Q18_Q1 hφ hacc (ix1 u)).trans
    (Finset.sum_congr rfl fun b _ => congrArg src (chain_lift_batch u b))

/-! ## One step of the accumulation -/

/-- A cell plus a value repeated over the cell's shape, at an index: the cell there plus the value. -/
theorem chain_addf_broadcast_apply (X : FVec Ideal O11 .f32) (v : Ideal .f32) (y : O11.Idx) :
    addf X (broadcast O11 v) y = X y + v := rfl

/-- One block's step, at the cell's index: the running cell plus the block's summand summed over batch, channels,
    rows and columns. -/
theorem chain_blockTerm_apply (x0 x1 : FVec Ideal B4 .f32) (x2 : FVec Ideal B3 .f32) (xo : FVec Ideal O11 .f32) (y : O11.Idx) :
    blockTerm x0 x1 x2 xo y
      = xo y + ∑ b : Fin 8, ∑ c : Fin 3, ∑ h : Fin 64, ∑ l : Fin 512,
          pix (x0 (ix4 b c h l)) (x1 (ix4 b c h l)) (x2 (ix3 b h l)) := by
  have hxo : shapeCast O11 xo sc_O11_O11 y = xo y := shapeCast_apply xo sc_O11_O11 y y rfl
  unfold blockTerm
  refine (chain_addf_broadcast_apply _ _ y).trans ?_
  refine congrArg₂ (fun u v : EReal => u + v) hxo ?_
  unfold extractAt
  refine (shapeCast_apply _ sc_Q1_O11 _ (ix1 (0 : Fin 1)) ?_).trans ?_
  · rw [Shape.rowMajor_val_one, Shape.rowMajor_val_two]
    rfl
  refine (chain_sum_batch _ _ _ 0).trans (Finset.sum_congr rfl fun b _ => ?_)
  refine (shapeCast_a_1a_apply _ sc_P8_Q18 0 b).trans ?_
  refine (chain_sum_chans _ _ _ b).trans (Finset.sum_congr rfl fun c _ => ?_)
  refine (chain_sum_rows _ _ _ b c).trans (Finset.sum_congr rfl fun h _ => ?_)
  refine (chain_sum_cols _ _ _ b c h).trans (Finset.sum_congr rfl fun l _ => ?_)
  exact chain_term_apply x0 x1 x2 b c h l

/-! ## Sums over index sets by coordinates -/

/-- A four-axis index set is the product of its four coordinate ranges … -/
def chainIdxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem chain_sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (chainIdxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `h` of block `t` among the 512 rows. -/
def chainRow (t : Fin 8) (h : Fin 64) : Fin 512 := ⟨64 * t.val + h.val, by have := t.isLt; have := h.isLt; omega⟩

/-- The 512 rows are eight blocks of 64. -/
def chainRowEquiv : Fin 8 × Fin 64 ≃ Fin 512 where
  toFun p := chainRow p.1 p.2
  invFun r := (⟨r.val / 64, by have := r.isLt; omega⟩, ⟨r.val % 64, by omega⟩)
  left_inv p := by
    rcases p with ⟨t, h⟩
    have hh := h.isLt
    refine Prod.ext (Fin.ext ?_) (Fin.ext ?_)
    · show (64 * t.val + h.val) / 64 = t.val
      omega
    · show (64 * t.val + h.val) % 64 = h.val
      omega
  right_inv r := Fin.ext (by
    show 64 * (r.val / 64) + r.val % 64 = r.val
    omega)

/-- So a sum over blocks and rows inside a block is the sum over all rows. -/
theorem chain_sum_blocks {M : Type*} [AddCommMonoid M] (f : Fin 512 → M) :
    ∑ t : Fin 8, ∑ h : Fin 64, f (chainRow t h) = ∑ r : Fin 512, f r :=
  (Fintype.sum_prod_type' (fun t h => f (chainRow t h))).symm.trans (Fintype.sum_equiv chainRowEquiv _ _ fun _ => rfl)

/-! ## The eight steps -/

/-- The starting cell is zero. -/
theorem chain_zeroCell_apply (y : O11.Idx) : (zeroCell (F := Ideal)) y = 0 := Ideal.ofBits_zero_f32

/-- Block `t`'s contribution: its 64 rows' summands over batch, channels, rows and columns. -/
def chainBlockSum (a b : FVec Ideal A4 .f32) (w : FVec Ideal A3 .f32) (t : Fin 8) : EReal :=
  ∑ b' : Fin 8, ∑ c : Fin 3, ∑ h : Fin 64, ∑ l : Fin 512,
    pix (a (ix4 b' c (chainRow t h) l)) (b (ix4 b' c (chainRow t h) l)) (w (ix3 b' (chainRow t h) l))

/-- One step on block `t` adds that block's contribution to the running cell. -/
theorem chain_step_apply (a b : FVec Ideal A4 .f32) (w : FVec Ideal A3 .f32) (t : Fin 8) (xo : FVec Ideal O11 .f32) (y : O11.Idx) :
    blockTerm (blk4 a t) (blk4 b t) (blk3 w t) xo y = xo y + chainBlockSum a b w t :=
  chain_blockTerm_apply (blk4 a t) (blk4 b t) (blk3 w t) xo y

/-- After step `n` the cell holds the contributions of blocks `0 … n`. -/
theorem chain_apply (a b : FVec Ideal A4 .f32) (w : FVec Ideal A3 .f32) (y : O11.Idx) (n : ℕ) :
    ∀ hn : n < 8, chain a b w n hn y = ∑ t : Fin (n + 1), chainBlockSum a b w ⟨t.val, by have := t.isLt; omega⟩ := by
  induction n with
  | zero =>
    intro hn
    show blockTerm (blk4 a ⟨0, hn⟩) (blk4 b ⟨0, hn⟩) (blk3 w ⟨0, hn⟩) zeroCell y = _
    rw [chain_step_apply, chain_zeroCell_apply, zero_add, Fin.sum_univ_one]
    rfl
  | succ n ih =>
    intro hn
    show blockTerm (blk4 a ⟨n + 1, hn⟩) (blk4 b ⟨n + 1, hn⟩) (blk3 w ⟨n + 1, hn⟩) (chain a b w n (Nat.lt_of_succ_lt hn)) y = _
    rw [chain_step_apply, ih (Nat.lt_of_succ_lt hn)]
    exact (Fin.sum_univ_castSucc (fun t : Fin (n + 1 + 1) => chainBlockSum a b w ⟨t.val, by have := t.isLt; omega⟩)).symm

/-- The cell after the last grid point holds the sum over every element of the four-axis array. -/
theorem chain_total (a b : FVec Ideal A4 .f32) (w : FVec Ideal A3 .f32) (y : O11.Idx) :
    chain a b w 7 (by decide) y = ∑ i : A4.Idx, pix (a i) (b i) (w (dropC i)) := by
  refine (chain_apply a b w y 7 (by decide)).trans ?_
  refine Eq.trans ?_ (chain_sum_idx4 (fun i : A4.Idx => pix (a i) (b i) (w (dropC i)))).symm
  show ∑ t : Fin 8, chainBlockSum a b w t = _
  unfold chainBlockSum
  refine Finset.sum_comm.trans (Finset.sum_congr rfl fun b' _ => ?_)
  refine Finset.sum_comm.trans (Finset.sum_congr rfl fun c _ => ?_)
  exact chain_sum_blocks (fun r => ∑ l : Fin 512, pix (a (ix4 b' c r l)) (b (ix4 b' c r l)) (w (ix3 b' r l)))

end Cert.Spec

end
-- ==== Proof.SpecRef.lean ====
/-
  The reference's side of the total. Repeating the weights over the channel axis changes neither their maximum nor,
  element by element, their normalised and clamped values; and the host's sum over all four axes from zero is the sum
  over every index.
-/
import proofs.«105719_j35673998361264_1_alg».proof.Proof.Spec
import Idealize.ShloMosaic.PureOps.Ideal.Laws
import Idealize.ShloMosaic.PureOps.Reduce
import Idealize.ShloMosaic.Lib.Pipeline.Value
import Idealize.ShloMosaic.Lib.ValueLayout
import Mathlib.Data.Finset.Fold
import Mathlib.Order.Basic

noncomputable section

namespace Cert.Spec

open Idealize.ShloMosaic

/-- A rank-zero array placed on no axis reads, at every index, its one element. -/
theorem bcast0_apply {α : Type} {t : Shape} (dims : Fin 0 → Fin t.rank) (h : Sc.BroadcastsInDim t dims)
    (x : Sc.Idx → α) (j : t.Idx) : broadcastInDim t dims h x j = x ValueIdx.ix0 :=
  congrArg x (Subsingleton.elim _ _)

/-- The repeated weights at an index: the weight at the index without its channel coordinate. -/
theorem up4_apply {α : Type} (w : A3.Idx → α) (i : A4.Idx) :
    broadcastInDim A4 ![0, 1, 2, 3] bc_A31_A4 (broadcastInDim A31 ![0, 2, 3] bc_A3_A31 w) i = w (dropC i) := by
  unfold broadcastInDim
  refine congrArg w (funext fun a => Fin.ext ?_)
  match a with
  | ⟨0, _⟩ => rfl
  | ⟨1, _⟩ => rfl
  | ⟨2, _⟩ => rfl

/-- Dropping the channel coordinate reaches every three-axis index. -/
theorem dropC_surj (k : A3.Idx) : ∃ i : A4.Idx, dropC i = k :=
  ⟨ValueIdx.ix4 (k 0) 0 (k 1) (k 2), (ValueIdx.eq_ix3 k).symm⟩

/-- A maximum over all four-axis indices of a family that ignores the channel coordinate is the maximum over the
    three-axis indices, from the same starting value: the same bounds lie above both. -/
theorem fold_max_dropC (w : A3.Idx → EReal) (c : EReal) :
    (Finset.univ : Finset A4.Idx).fold max c (fun i => w (dropC i)) = (Finset.univ : Finset A3.Idx).fold max c w := by
  refine eq_of_forall_ge_iff fun x => ?_
  rw [Finset.fold_max_le, Finset.fold_max_le]
  refine and_congr_right fun _ => ⟨fun h k _ => ?_, fun h i _ => h (dropC i) (Finset.mem_univ _)⟩
  obtain ⟨i, rfl⟩ := dropC_surj k
  exact h i (Finset.mem_univ _)

/-- Repeating the weights over the channels does not change their maximum. -/
theorem mx4_up4 (w : FVec Ideal A3 .f32) : mx4 (up4 w) = mx3 w := by
  funext j
  unfold mx4 mx3
  rw [Host.reduce_eq_fold, Host.reduce_eq_fold,
    Finset.filter_true_of_mem fun i _ => Subsingleton.elim _ _,
    Finset.filter_true_of_mem fun i _ => Subsingleton.elim _ _]
  have hup : up4 w = fun i => w (dropC i) := funext fun i => up4_apply w i
  rw [hup]
  exact fold_max_dropC w _

/-- Normalising and clamping is elementwise: equal weights under one maximum give equal results, whatever the shapes. -/
theorem nrmWith_congr {s s' : Shape} (hb : Sc.BroadcastsInDim s (![] : Fin 0 → Fin s.rank))
    (hb' : Sc.BroadcastsInDim s' (![] : Fin 0 → Fin s'.rank)) (mxv : FVec Ideal Sc .f32) (w : FVec Ideal s .f32)
    (w' : FVec Ideal s' .f32) (i : s.Idx) (i' : s'.Idx) (h : w i = w' i') :
    nrmWith hb mxv w i = nrmWith hb' mxv w' i' := by
  unfold nrmWith
  simp only [minimumf, maximumf, select, Host.divf, cmpf, bcast0_apply, h]

/-- The normalised, clamped weights after repeating over the channels, read at an index: the three-axis ones at the
    index without its channel coordinate. -/
theorem nrm4_apply (w : FVec Ideal A3 .f32) (i : A4.Idx) : nrm4 w i = nrm3 w (dropC i) := by
  unfold nrm4 nrm3
  rw [mx4_up4]
  exact nrmWith_congr bc_Sc_A4 bc_Sc_A3 (mx3 w) (up4 w) w i (dropC i) (up4_apply w i)

/-- The reference's summand at an index is one element's contribution. -/
theorem refTerm_apply (a b w4 : FVec Ideal A4 .f32) (i : A4.Idx) :
    mulf (Host.absf (subf a b)) (addf (mulf w4 (broadcastInDim A4 ![] bc_Sc_A4 (constant Sc .f32 0x3F800000#32)))
      (broadcastInDim A4 ![] bc_Sc_A4 (constant Sc .f32 0x3F800000#32))) i = pix (a i) (b i) (w4 i) := rfl

/-- The reference's result: the sum over every element of `|a − b| · (nrm3 w · 1 + 1)`, the weight read without the
    channel coordinate, divided by the element count. -/
theorem refOut_total (a b : FVec Ideal A4 .f32) (w : FVec Ideal A3 .f32) (j : Sc.Idx) :
    refOut a b (nrm4 w) j
      = FloatOps.hostDivf (∑ i : A4.Idx, pix (a i) (b i) (nrm3 w (dropC i))) (FloatOps.ofBits .f32 0x4AC00000#32) := by
  unfold refOut
  refine congrArg (fun z => FloatOps.hostDivf z (FloatOps.ofBits .f32 0x4AC00000#32)) ?_
  show Ideal.hostReduceAdd red_A4_Sc _ (Ideal.ofBits .f32 0x00000000#32) j = _
  rw [Ideal.hostReduceAdd_total red_A4_Sc (fun b => b.elim0), Ideal.ofBits_zero_f32, zero_add]
  refine Finset.sum_congr rfl fun i _ => ?_
  rw [refTerm_apply, nrm4_apply]

end Cert.Spec

end
-- ==== Proof.SpecMain.lean ====
/-
  The two totals are one number. The kernel's cell after the last grid point and the reference's single sum are both the sum
  over every element of `|a − b| · (weight · 1 + 1)`, the weight being the normalised, clamped map read without the channel
  coordinate; both are then divided by the same element count.
-/
import proofs.«105719_j35673998361264_1_alg».proof.Proof.SpecChain
import proofs.«105719_j35673998361264_1_alg».proof.Proof.SpecRef

noncomputable section

namespace Cert.Spec

open Idealize.ShloMosaic

/-- The reference's mean over the channel-repeated weights is the kernel's accumulated cell over the plain weights, divided. -/
theorem main_math (a b : FVec Ideal A4 .f32) (w : FVec Ideal A3 .f32) :
    refOut a b (nrm4 w) = kerOut (chain a b (nrm3 w) 7 (by decide)) := by
  funext j
  rw [refOut_total]
  show _ = FloatOps.hostDivf (shapeCast Sc (chain a b (nrm3 w) 7 (by decide)) sc_O11_Sc j) (FloatOps.ofBits .f32 0x4AC00000#32)
  unfold shapeCast
  rw [chain_total]

end Cert.Spec

end
-- ==== Proof.lean ====
/-
  Two programs compute a weighted mean absolute error. Both take the channel sum of `|input − target|`, average it over the
  pixels of each (batch, region) segment, normalise the per-pixel means by their global maximum when that is positive, clamp
  to [0, 1], and return the mean over all elements of `|input − target| · (weight · 1 + 1)`.

  The kernel does the two passes over the images in two calls, each tiled into eight blocks of 64 rows: the first writes the
  channel sums block by block, the second accumulates the weighted total in one cell, summing each block axis by axis. The
  reference repeats the weights over the channel axis and sums all four axes at once. Over the extended reals the channel
  sums agree (the same three terms), repeating the weights changes neither their maximum nor their normalised values, and
  the eight nested partial sums add up to the single sum, addition being commutative and associative; so the two results are
  equal. No law used needs the inputs to be finite.

  The frames of the two kernel programs are the generated ones; the reference's frame is its run with the result dropped;
  the idealization rewrote nothing.
-/
import proofs.«105719_j35673998361264_1_alg».proof.Defs
import proofs.«105719_j35673998361264_1_alg».proof.Proof.Gen.Kernel
import proofs.«105719_j35673998361264_1_alg».proof.Proof.Gen.Kernel.Frame
import proofs.«105719_j35673998361264_1_alg».proof.Proof.Gen.KernelIdeal
import proofs.«105719_j35673998361264_1_alg».proof.Proof.Gen.KernelIdeal.Frame
import proofs.«105719_j35673998361264_1_alg».proof.Proof.Gen.ReferenceIdeal
import proofs.«105719_j35673998361264_1_alg».proof.Proof.Gen.Pre_finite_inputs
import proofs.«105719_j35673998361264_1_alg».proof.Proof.KRun
import proofs.«105719_j35673998361264_1_alg».proof.Proof.KTail
import proofs.«105719_j35673998361264_1_alg».proof.Proof.KMid
import proofs.«105719_j35673998361264_1_alg».proof.Proof.KChan
import proofs.«105719_j35673998361264_1_alg».proof.Proof.KAcc
import proofs.«105719_j35673998361264_1_alg».proof.Proof.RefVal
import proofs.«105719_j35673998361264_1_alg».proof.Proof.SpecMain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefVal.ref_run (F := Ideal) m ρ)

/-- The kernel's result buffer after its run, as the reference's expression of the launch contents: the last stretch divides
    the second call's cell, the cell is the chain over the arrays the second call read, those are the images as launched and the
    normalised segment means of the first call's output, which is the channel sum; and the chain is the reference's sum. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 m ρ c (Proc.devRef .tc Cert.KernelIdeal.main_v40)
      = Cert.Spec.refOut (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (Cert.Spec.nrm4 (F := Ideal) (Cert.Spec.segW (F := Ideal) (Cert.Spec.chan (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
            (m ((c.tc : Thread Cert.KernelIdeal.nD Cert.KernelIdeal.τ).loc Cert.KernelIdeal.main_arg2)))) := by
  have h37 : Cert.KernelIdeal.Gen.V7 m ρ c Cert.KernelIdeal.main_v37 = _ := Cert.KernelIdeal.KMid.W7_v37 m ρ c
  have h0 : Cert.KernelIdeal.Gen.V7 m ρ c Cert.KernelIdeal.main_arg0 = _ := Cert.KernelIdeal.KMid.W7_arg0 m ρ c
  have h1 : Cert.KernelIdeal.Gen.V7 m ρ c Cert.KernelIdeal.main_arg1 = _ := Cert.KernelIdeal.KMid.W7_arg1 m ρ c
  rw [Cert.KernelIdeal.KTail.W9_v40, Cert.KernelIdeal.KAcc.acc_final, h37, h0, h1, Cert.KernelIdeal.KChan.W1_v0, Cert.Spec.main_math]

theorem algebraic : Cert.algebraic_KernelIdeal_ReferenceIdeal := by
  intro m ρ m' ρ' _ hagree
  refine ⟨_, (θ_run Cert.KernelIdeal.defs _ _).mono (fun _ h c => ⟨(h c).1.trans (kernel_value m ρ c), (h c).2⟩)
    (Cert.KernelIdeal.RunV.run_v40 (F := Ideal) m ρ), ?_⟩
  refine (θ_run Cert.ReferenceIdeal.defs _ _).mono (fun _ h c => ⟨(h c).1.trans ?_, (h c).2⟩)
    (Cert.ReferenceIdeal.RefVal.ref_run (F := Ideal) m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
